-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x1x512 : Shape := ⟨3, ![64, 1, 512]⟩
abbrev S64x1x2048 : Shape := ⟨3, ![64, 1, 2048]⟩
abbrev S64 : Shape := ⟨1, ![64]⟩
abbrev S512x512 : Shape := ⟨2, ![512, 512]⟩
abbrev S512x1024 : Shape := ⟨2, ![512, 1024]⟩
abbrev S512 : Shape := ⟨1, ![512]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S64x1x512 : S_.BroadcastsInDim S64x1x512 (![] : Fin 0 → Fin S64x1x512.rank)
  reducesTo_S64x1x512_S_d0_1_2 : S64x1x512.ReducesTo [0, 1, 2] S_
  bcast_S_S512x512 : S_.BroadcastsInDim S512x512 (![] : Fin 0 → Fin S512x512.rank)
  reducesTo_S512x512_S_d0_1 : S512x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S64 : S_.BroadcastsInDim S64 (![] : Fin 0 → Fin S64.rank)
  reducesTo_S64_S_d0 : S64.ReducesTo [0] S_

variable [Facts]

def fn_part2 {F : FTy → Type} [FloatOps F] (main_v28 : IVec S_ 1) (main_v33 : IVec S64 1) : IVec S_ 1 :=
  let main_c_12 : IVec S_ 1 := constantI S_ 1 1#1
  let main_v34 : IVec S_ 1 := (fun x v => Host.reduce IntOp.andi x v reducesTo_S64_S_d0 h_S_) main_v33 main_c_12
  let main_v35 : IVec S_ 1 := andi main_v28 main_v34
  main_v35

def fn_part1 {F : FTy → Type} [FloatOps F] (main_arg3 : IVec S64 32) (main_arg6 : FVec F S512x512 .f32) (main_arg7 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512x512 .f32 := Host.absf main_arg6
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_c_10 : IVec S_ 32 := constantI S_ 32 0#32
  let main_v29 : IVec S64 32 := broadcastInDim S64 ![] bcast_S_S64 main_c_10
  let main_v30 : IVec S64 1 := cmpi .sge main_arg3 main_v29
  let main_c_11 : IVec S_ 32 := constantI S_ 32 2048#32
  let main_v31 : IVec S64 32 := broadcastInDim S64 ![] bcast_S_S64 main_c_11
  let main_v32 : IVec S64 1 := cmpi .slt main_arg3 main_v31
  let main_v33 : IVec S64 1 := andi main_v30 main_v32
  fn_part2 (F := F) main_v28 main_v33

def fn {F : FTy → Type} [FloatOps F] (main_arg0 : FVec F S64x2048x512 .f32) (main_arg1 : FVec F S64x1x512 .f32) (main_arg2 : IVec S64x1x2048 1) (main_arg3 : IVec S64 32) (main_arg4 : FVec F S512x512 .f32) (main_arg5 : FVec F S512x1024 .f32) (main_arg6 : FVec F S512x512 .f32) (main_arg7 : FVec F S512 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S64x1x512 .f32 := Host.absf main_arg1
  let main_cst_0 : FVec F S_ .f32 := constant S_ .f32 0x7F800000#32
  let main_v5 : FVec F S64x1x512 .f32 := broadcastInDim S64x1x512 ![] bcast_S_S64x1x512 main_cst_0
  let main_v6 : IVec S64x1x512 1 := cmpf .olt main_v4 main_v5
  let main_c_1 : IVec S_ 1 := constantI S_ 1 1#1
  let main_v7 : IVec S_ 1 := (fun x v => Host.reduce IntOp.andi x v reducesTo_S64x1x512_S_d0_1_2 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x1024 .f32 := Host.absf main_arg5
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg3 main_arg6 main_arg7 main_v13 main_v16
-- ==== Kernel.lean ====
abbrev S64x2048x512 : Shape := ⟨3, ![64, 2048, 512]⟩
abbrev S64x1x512 : Shape := ⟨3, ![64, 1, 512]⟩
abbrev S64x1x2048 : Shape := ⟨3, ![64, 1, 2048]⟩
abbrev S64 : Shape := ⟨1, ![64]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S64x512x2048 : Shape := ⟨3, ![64, 512, 2048]⟩
abbrev S2x2048x512 : Shape := ⟨3, ![2, 2048, 512]⟩
abbrev S2x1x512 : Shape := ⟨3, ![2, 1, 512]⟩
abbrev S2x1x2048 : Shape := ⟨3, ![2, 1, 2048]⟩
abbrev S2x512x2048 : Shape := ⟨3, ![2, 512, 2048]⟩
abbrev S1 : Shape := ⟨1, ![1]⟩
abbrev S1x2048x512 : Shape := ⟨3, ![1, 2048, 512]⟩
abbrev S2048x512 : Shape := ⟨2, ![2048, 512]⟩
abbrev S1x1x512 : Shape := ⟨3, ![1, 1, 512]⟩
abbrev S1x512 : Shape := ⟨2, ![1, 512]⟩
abbrev S1x1x2048 : Shape := ⟨3, ![1, 1, 2048]⟩
abbrev S1x2048 : Shape := ⟨2, ![1, 2048]⟩
abbrev S1x1 : Shape := ⟨2, ![1, 1]⟩
abbrev S512x2048 : Shape := ⟨2, ![512, 2048]⟩
abbrev S1x512x2048 : Shape := ⟨3, ![1, 512, 2048]⟩
abbrev S_ : Shape := ⟨0, ![]⟩

abbrev nBuf : Space → Nat
  | .hbm => 17
  | .vmem => 15
  | .smem => 1
  | _ => 0

abbrev bufTy : (tb : Table) → Fin (tcTables nBuf tb) → BufTy
  | .hbm, ⟨0, _⟩ => ⟨S64x2048x512, .f32⟩
  | .hbm, ⟨1, _⟩ => ⟨S64x1x512, .f32⟩
  | .hbm, ⟨2, _⟩ => ⟨S64x1x2048, .i1⟩
  | .hbm, ⟨3, _⟩ => ⟨S512x512, .f32⟩
  | .hbm, ⟨4, _⟩ => ⟨S512x1024, .f32⟩
  | .hbm, ⟨5, _⟩ => ⟨S512x512, .f32⟩
  | .hbm, ⟨6, _⟩ => ⟨S512, .f32⟩
  | .hbm, ⟨7, _⟩ => ⟨S64x1x2048, .i32⟩
  | .hbm, ⟨8, _⟩ => ⟨S512x512, .bf16⟩
  | .hbm, ⟨9, _⟩ => ⟨S512x1, .f32⟩
  | .hbm, ⟨10, _⟩ => ⟨S64x512x2048, .f32⟩
  | .hbm, ⟨11, _⟩ => ⟨S64x1x2048, .f32⟩
  | .hbm, ⟨12, _⟩ => ⟨S64x1x2048, .i32⟩
  | .hbm, ⟨13, _⟩ => ⟨S_, .i32⟩
  | .hbm, ⟨14, _⟩ => ⟨S64x1x2048, .i32⟩
  | .hbm, ⟨15, _⟩ => ⟨S64x1x2048, .i1⟩
  | .hbm, ⟨16, _⟩ => ⟨S64x1x2048, .i1⟩
  | .local _ .vmem, ⟨0, _⟩ => ⟨S2x2048x512, .f32⟩
  | .local _ .vmem, ⟨1, _⟩ => ⟨S2x2048x512, .f32⟩
  | .local _ .vmem, ⟨2, _⟩ => ⟨S2x1x512, .f32⟩
  | .local _ .vmem, ⟨3, _⟩ => ⟨S2x1x512, .f32⟩
  | .local _ .vmem, ⟨4, _⟩ => ⟨S2x1x2048, .i32⟩
  | .local _ .vmem, ⟨5, _⟩ => ⟨S2x1x2048, .i32⟩
  | .local _ .vmem, ⟨6, _⟩ => ⟨S512x512, .f32⟩
  | .local _ .vmem, ⟨7, _⟩ => ⟨S512x512, .bf16⟩
  | .local _ .vmem, ⟨8, _⟩ => ⟨S512x1, .f32⟩
  | .local _ .vmem, ⟨9, _⟩ => ⟨S2x512x2048, .f32⟩
  | .local _ .vmem, ⟨10, _⟩ => ⟨S2x512x2048, .f32⟩
  | .local _ .vmem, ⟨11, _⟩ => ⟨S2x1x2048, .f32⟩
  | .local _ .vmem, ⟨12, _⟩ => ⟨S2x1x2048, .f32⟩
  | .local _ .vmem, ⟨13, _⟩ => ⟨S2x1x2048, .i32⟩
  | .local _ .vmem, ⟨14, _⟩ => ⟨S2x1x2048, .i32⟩
  | .local _ .smem, ⟨0, _⟩ => ⟨S64, .i32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v5 : BitVec 32 := Scalar.muli arg0 c2_i32
  let v6 : BitVec 32 := Scalar.addi v5 c0_i32
  let v7 : Index := Scalar.indexCast v6
  ![v7.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x2048 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  natLt_1_32 : 1 < 32
  bitsLt_bf16_f32 : FTy.bits .bf16 < FTy.bits .f32
  shapeCasts_S512_S512x1 : S512.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  numel1_S1 : S1.numel = 1
  inb_S2x2048x512_S1x2048x512_0_0_0 : ∀ a, (![0, 0, 0] : Fin 3 → Nat) a + S1x2048x512.size a ≤ S2x2048x512.size a
  h_S1x2048x512 : 0 < S1x2048x512.numel
  shapeCasts_S1x2048x512_S2048x512 : S1x2048x512.ShapeCasts S2048x512
  inb_S2x1x512_S1x1x512_0_0_0 : ∀ a, (![0, 0, 0] : Fin 3 → Nat) a + S1x1x512.size a ≤ S2x1x512.size a
  h_S1x1x512 : 0 < S1x1x512.numel
  shapeCasts_S1x1x512_S1x512 : S1x1x512.ShapeCasts S1x512
  inb_S2x1x2048_S1x1x2048_0_0_0 : ∀ a, (![0, 0, 0] : Fin 3 → Nat) a + S1x1x2048.size a ≤ S2x1x2048.size a
  h_S1x1x2048 : 0 < S1x1x2048.numel
  shapeCasts_S1x1x2048_S1x2048 : S1x1x2048.ShapeCasts S1x2048
  iota_S1x2048_d1_w32 : S1x2048.Iotas .tc 32 [1]
  reduces_S1x2048_S1 : S1x2048.Reduces [1] S1
  shapeCasts_S1_S1x1 : S1.ShapeCasts S1x1
  broadcasts_S1x1_S1x2048 : S1x1.Broadcasts S1x2048
  shapeCasts_S1x2048_S1x1x2048 : S1x2048.ShapeCasts S1x1x2048
  broadcasts_S512x1_S512x2048 : S512x1.Broadcasts S512x2048
  inb_S2x512x2048_S1x512x2048_0_0_0 : ∀ a, (![0, 0, 0] : Fin 3 → Nat) a + S1x512x2048.size a ≤ S2x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S2x2048x512_S1x2048x512_1_0_0 : ∀ a, (![1, 0, 0] : Fin 3 → Nat) a + S1x2048x512.size a ≤ S2x2048x512.size a
  inb_S2x1x512_S1x1x512_1_0_0 : ∀ a, (![1, 0, 0] : Fin 3 → Nat) a + S1x1x512.size a ≤ S2x1x512.size a
  inb_S2x1x2048_S1x1x2048_1_0_0 : ∀ a, (![1, 0, 0] : Fin 3 → Nat) a + S1x1x2048.size a ≤ S2x1x2048.size a
  inb_S2x512x2048_S1x512x2048_1_0_0 : ∀ a, (![1, 0, 0] : Fin 3 → Nat) a + S1x512x2048.size a ≤ S2x512x2048.size a
  bcast_S_S64x1x2048 : S_.BroadcastsInDim S64x1x2048 (![] : Fin 0 → Fin S64x1x2048.rank)
  dot_S1x512_S512x512_S1x512_1_1_0_0_n_n_wf : DotDims.WF S1x512 S512x512 S1x512 [1] [1] [0] [0] [] []
  dot_S1x512_S2048x512_S1x2048_1_1_0_0_n_n_wf : DotDims.WF S1x512 S2048x512 S1x2048 [1] [1] [0] [0] [] []
  dot_S512x512_S2048x512_S512x2048_1_1_0_0_n_n_wf : DotDims.WF S512x512 S2048x512 S512x2048 [1] [1] [0] [0] [] []
  hrank0 : 0 < grid0.rank
  k0_off1_inb : ∀ i : grid0.Coords, ∀ (r : Fin 2), ∀ a, (k0_off1 i (BitVec.ofNat 32 r.val)) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x512.size a ≤ S64x2048x512.size a
  hwx0_0 : ∀ i : grid0.Coords, EltTy.bits .f32 = 32 ∨ (Rect.block (s := S64x2048x512) S2x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512.size a ≤ S64x1x512.size a
  hwx0_1 : ∀ i : grid0.Coords, EltTy.bits .f32 = 32 ∨ (Rect.block (s := S64x1x512) S2x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x2048.size a ≤ S64x1x2048.size a
  hwx0_2 : ∀ i : grid0.Coords, EltTy.bits .i32 = 32 ∨ (Rect.block (s := S64x1x2048) S2x1x2048.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x512x2048.size a ≤ S64x512x2048.size a
  hwx0_6 : ∀ i : grid0.Coords, EltTy.bits .f32 = 32 ∨ (Rect.block (s := S64x512x2048) S2x512x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x1x2048.size a ≤ S64x1x2048.size a
  hwx0_7 : ∀ i : grid0.Coords, EltTy.bits .f32 = 32 ∨ (Rect.block (s := S64x1x2048) S2x1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x1x2048.size a ≤ S64x1x2048.size a
  hwx0_8 : ∀ i : grid0.Coords, EltTy.bits .i32 = 32 ∨ (Rect.block (s := S64x1x2048) S2x1x2048.size (cc0_transform_8 i) (hinb0_8 i)).WholeWords (EltTy.packing .i32)

variable [Facts₀]

def dot_S1x512_S512x512_S1x512_1_1_0_0_n_n : DotDims S1x512 S512x512 S1x512 where
  lhsContracting := [1]
  rhsContracting := [1]
  lhsNonContracting := [0]
  rhsNonContracting := [0]
  lhsBatch := []
  rhsBatch := []
  wf := dot_S1x512_S512x512_S1x512_1_1_0_0_n_n_wf
def dot_S1x512_S2048x512_S1x2048_1_1_0_0_n_n : DotDims S1x512 S2048x512 S1x2048 where
  lhsContracting := [1]
  rhsContracting := [1]
  lhsNonContracting := [0]
  rhsNonContracting := [0]
  lhsBatch := []
  rhsBatch := []
  wf := dot_S1x512_S2048x512_S1x2048_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev spec0_0 : Pipeline.WinSpec sig grid0.rank :=
  Pipeline.WinSpec.ofSpec (Memref.whole main_arg0) S2x2048x512.size reads0_0 false false 2 stage0_0 sem0_0 nbuf0_0 hstage0_0

abbrev spec0_1 : Pipeline.WinSpec sig grid0.rank :=
  Pipeline.WinSpec.ofSpec (Memref.whole main_arg1) S2x1x512.size reads0_1 false false 2 stage0_1 sem0_1 nbuf0_1 hstage0_1

abbrev spec0_2 : Pipeline.WinSpec sig grid0.rank :=
  Pipeline.WinSpec.ofSpec (Memref.whole main_v0) S2x1x2048.size reads0_2 false false 2 stage0_2 sem0_2 nbuf0_2 hstage0_2

abbrev spec0_3 : Pipeline.WinSpec sig grid0.rank :=
  Pipeline.WinSpec.ofSpec (Memref.whole main_arg4) S512x512.size reads0_3 false true 1 stage0_3 sem0_3 nbuf0_3 hstage0_3

abbrev spec0_4 : Pipeline.WinSpec sig grid0.rank :=
  Pipeline.WinSpec.ofSpec (Memref.whole main_v1) S512x512.size reads0_4 false true 1 stage0_4 sem0_4 nbuf0_4 hstage0_4

abbrev spec0_5 : Pipeline.WinSpec sig grid0.rank :=
  Pipeline.WinSpec.ofSpec (Memref.whole main_v2) S512x1.size reads0_5 false true 1 stage0_5 sem0_5 nbuf0_5 hstage0_5

abbrev spec0_6 : Pipeline.WinSpec sig grid0.rank :=
  Pipeline.WinSpec.ofSpec (Memref.whole main_v3_0) S2x512x2048.size reads0_6 true false 2 stage0_6 sem0_6 nbuf0_6 hstage0_6

abbrev spec0_7 : Pipeline.WinSpec sig grid0.rank :=
  Pipeline.WinSpec.ofSpec (Memref.whole main_v3_1) S2x1x2048.size reads0_7 true false 2 stage0_7 sem0_7 nbuf0_7 hstage0_7

abbrev spec0_8 : Pipeline.WinSpec sig grid0.rank :=
  Pipeline.WinSpec.ofSpec (Memref.whole main_v3_2) S2x1x2048.size reads0_8 true false 2 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | ⟨_ + 9, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | ⟨_ + 9, h⟩ => absurd h (Nat.not_lt.2 (Nat.le_add_left _ _))

class Facts : Prop extends Facts₀ where
  harr0 : ∀ w, (spec0 w).arr.IsWhole

variable [Facts]
-- ==== ReferenceIdeal.lean ====
abbrev S64x2048x512 : Shape := ⟨3, ![64, 2048, 512]⟩
abbrev S64x1x512 : Shape := ⟨3, ![64, 1, 512]⟩
abbrev S64x1x2048 : Shape := ⟨3, ![64, 1, 2048]⟩
abbrev S64 : Shape := ⟨1, ![64]⟩
abbrev S512x512 : Shape := ⟨2, ![512, 512]⟩
abbrev S512x1024 : Shape := ⟨2, ![512, 1024]⟩
abbrev S512 : Shape := ⟨1, ![512]⟩
abbrev S_ : Shape := ⟨0, ![]⟩
abbrev S64x1 : Shape := ⟨2, ![64, 1]⟩
abbrev S64x2 : Shape := ⟨2, ![64, 2]⟩
abbrev S64x1x1 : Shape := ⟨3, ![64, 1, 1]⟩
abbrev S64x1x1024 : Shape := ⟨3, ![64, 1, 1024]⟩
abbrev S64x512x2048 : Shape := ⟨3, ![64, 512, 2048]⟩
abbrev S1x512x1 : Shape := ⟨3, ![1, 512, 1]⟩

abbrev nBuf : Space → Nat
  | .hbm => 57
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x1x512, .f32⟩
  | .hbm, ⟨2, _⟩ => ⟨S64x1x2048, .i1⟩
  | .hbm, ⟨3, _⟩ => ⟨S64, .i32⟩
  | .hbm, ⟨4, _⟩ => ⟨S512x512, .f32⟩
  | .hbm, ⟨5, _⟩ => ⟨S512x1024, .f32⟩
  | .hbm, ⟨6, _⟩ => ⟨S512x512, .f32⟩
  | .hbm, ⟨7, _⟩ => ⟨S512, .f32⟩
  | .hbm, ⟨8, _⟩ => ⟨S64x1x512, .f32⟩
  | .hbm, ⟨9, _⟩ => ⟨S64x1x2048, .f32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i1⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S64, .i32⟩
  | .hbm, ⟨25, _⟩ => ⟨S64x1, .i32⟩
  | .hbm, ⟨26, _⟩ => ⟨S64x1, .i32⟩
  | .hbm, ⟨27, _⟩ => ⟨S64x2, .i32⟩
  | .hbm, ⟨28, _⟩ => ⟨S_, .i1⟩
  | .hbm, ⟨29, _⟩ => ⟨S64x1, .i1⟩
  | .hbm, ⟨30, _⟩ => ⟨S64x1x2048, .i1⟩
  | .hbm, ⟨31, _⟩ => ⟨S_, .f32⟩
  | .hbm, ⟨32, _⟩ => ⟨S_, .f32⟩
  | .hbm, ⟨33, _⟩ => ⟨S64x1x2048, .f32⟩
  | .hbm, ⟨34, _⟩ => ⟨S64x1x2048, .f32⟩
  | .hbm, ⟨35, _⟩ => ⟨S_, .f32⟩
  | .hbm, ⟨36, _⟩ => ⟨S64x1, .f32⟩
  | .hbm, ⟨37, _⟩ => ⟨S_, .f32⟩
  | .hbm, ⟨38, _⟩ => ⟨S64x1, .f32⟩
  | .hbm, ⟨39, _⟩ => ⟨S64x1, .f32⟩
  | .hbm, ⟨40, _⟩ => ⟨S64x1x1, .f32⟩
  | .hbm, ⟨41, _⟩ => ⟨S64x1x2048, .f32⟩
  | .hbm, ⟨42, _⟩ => ⟨S64x1x2048, .f32⟩
  | .hbm, ⟨43, _⟩ => ⟨S64x1x2048, .f32⟩
  | .hbm, ⟨44, _⟩ => ⟨S_, .f32⟩
  | .hbm, ⟨45, _⟩ => ⟨S64x1, .f32⟩
  | .hbm, ⟨46, _⟩ => ⟨S64x1x1, .f32⟩
  | .hbm, ⟨47, _⟩ => ⟨S64x1x2048, .f32⟩
  | .hbm, ⟨48, _⟩ => ⟨S64x1x2048, .f32⟩
  | .hbm, ⟨49, _⟩ => ⟨S64x1x512, .f32⟩
  | .hbm, ⟨50, _⟩ => ⟨S64x1x1024, .f32⟩
  | .hbm, ⟨51, _⟩ => ⟨S64x1x512, .f32⟩
  | .hbm, ⟨52, _⟩ => ⟨S64x2048x512, .f32⟩
  | .hbm, ⟨53, _⟩ => ⟨S64x512x2048, .f32⟩
  | .hbm, ⟨54, _⟩ => ⟨S1x512x1, .f32⟩
  | .hbm, ⟨55, _⟩ => ⟨S64x512x2048, .f32⟩
  | .hbm, ⟨56, _⟩ => ⟨S64x512x2048, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S_S64x1 : S_.BroadcastsInDim S64x1 (![] : Fin 0 → Fin S64x1.rank)
  bcast_S_S64x1x2048 : S_.BroadcastsInDim S64x1x2048 (![] : Fin 0 → Fin S64x1x2048.rank)
  reducesTo_S64x1x2048_S64x1_d2 : S64x1x2048.ReducesTo [2] S64x1
  h_S_ : 0 < S_.numel
  bcast_S64x1_S64x1x1_0_1 : S64x1.BroadcastsInDim S64x1x1 (![0, 1] : Fin 2 → Fin S64x1x1.rank)
  bcast_S64x1x1_S64x1x2048_0_1_2 : S64x1x1.BroadcastsInDim S64x1x2048 (![0, 1, 2] : Fin 3 → Fin S64x1x2048.rank)
  concatenates_S64x1x512_S64x1x512_S64x1x1024_d2 : Shape.Concatenates [S64x1x512, S64x1x512] S64x1x1024 2
  transposes_S64x2048x512_S64x512x2048_0_2_1 : S64x2048x512.Transposes [0, 2, 1] S64x512x2048
  bcast_S512_S1x512x1_1 : S512.BroadcastsInDim S1x512x1 (![1] : Fin 1 → Fin S1x512x1.rank)
  bcast_S1x512x1_S64x512x2048_0_1_2 : S1x512x1.BroadcastsInDim S64x512x2048 (![0, 1, 2] : Fin 3 → Fin S64x512x2048.rank)
  dot_S64x1x512_S512x512_S64x1x512_2_1_01_0_n_n_wf : DotDims.WF S64x1x512 S512x512 S64x1x512 [2] [1] [0, 1] [0] [] []
  dot_S64x1x512_S64x2048x512_S64x1x2048_2_2_1_1_0_0_wf : DotDims.WF S64x1x512 S64x2048x512 S64x1x2048 [2] [2] [1] [1] [0] [0]
  scatter_S64x1x2048_S64x2_S64x1_1_02_02_1_wf : ScatterDims.WF S64x1x2048 S64x2 S64x1 [1] [0, 2] [0, 2] 1
  dot_S64x1x2048_S64x2048x512_S64x1x512_2_1_1_2_0_0_wf : DotDims.WF S64x1x2048 S64x2048x512 S64x1x512 [2] [1] [1] [2] [0] [0]
  dot_S64x1x1024_S512x1024_S64x1x512_2_1_01_0_n_n_wf : DotDims.WF S64x1x1024 S512x1024 S64x1x512 [2] [1] [0, 1] [0] [] []
  dot_S64x2048x512_S512x512_S64x2048x512_2_1_01_0_n_n_wf : DotDims.WF S64x2048x512 S512x512 S64x2048x512 [2] [1] [0, 1] [0] [] []

variable [Facts₀]

def dot_S64x1x512_S512x512_S64x1x512_2_1_01_0_n_n : DotDims S64x1x512 S512x512 S64x1x512 where
  lhsContracting := [2]
  rhsContracting := [1]
  lhsNonContracting := [0, 1]
  rhsNonContracting := [0]
  lhsBatch := []
  rhsBatch := []
  wf := dot_S64x1x512_S512x512_S64x1x512_2_1_01_0_n_n_wf
def dot_S64x1x512_S64x2048x512_S64x1x2048_2_2_1_1_0_0 : DotDims S64x1x512 S64x2048x512 S64x1x2048 where
  lhsContracting := [2]
  rhsContracting := [2]
  lhsNonContracting := [1]
  rhsNonContracting := [1]
  lhsBatch := [0]
  rhsBatch := [0]
  wf := dot_S64x1x512_S64x2048x512_S64x1x2048_2_2_1_1_0_0_wf
def scatter_S64x1x2048_S64x2_S64x1_1_02_02_1 : ScatterDims S64x1x2048 S64x2 S64x1 where
  updateWindowDims := [1]
  insertedWindowDims := [0, 2]
  scatterDimsToOperandDims := [0, 2]
  indexVectorDim := 1
  wf := scatter_S64x1x2048_S64x2_S64x1_1_02_02_1_wf
def dot_S64x1x2048_S64x2048x512_S64x1x512_2_1_1_2_0_0 : DotDims S64x1x2048 S64x2048x512 S64x1x512 where
  lhsContracting := [2]
  rhsContracting := [1]
  lhsNonContracting := [1]
  rhsNonContracting := [2]
  lhsBatch := [0]
  rhsBatch := [0]
  wf := dot_S64x1x2048_S64x2048x512_S64x1x512_2_1_1_2_0_0_wf
def dot_S64x1x1024_S512x1024_S64x1x512_2_1_01_0_n_n : DotDims S64x1x1024 S512x1024 S64x1x512 where
  lhsContracting := [2]
  rhsContracting := [1]
  lhsNonContracting := [0, 1]
  rhsNonContracting := [0]
  lhsBatch := []
  rhsBatch := []
  wf := dot_S64x1x1024_S512x1024_S64x1x512_2_1_01_0_n_n_wf
def dot_S64x2048x512_S512x512_S64x2048x512_2_1_01_0_n_n : DotDims S64x2048x512 S512x512 S64x2048x512 where
  lhsContracting := [2]
  rhsContracting := [1]
  lhsNonContracting := [0, 1]
  rhsNonContracting := [0]
  lhsBatch := []
  rhsBatch := []
  wf := dot_S64x2048x512_S512x512_S64x2048x512_2_1_01_0_n_n_wf

class Facts : Prop extends Facts₀ where

variable [Facts]
-- ==== Proof.PreDecode.lean ====
/-
  What the precondition says of the previous indices: each is a position of the source axis, 0 ≤ idx[b] < 2048
  as signed words, so its unsigned value is below 2048.
-/
import proofs.«402281_j61795989455034_3_alg».proof.Pre_finite_inputs
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx Cert.Pre_finite_inputs

/-- Under the precondition every previous index, read unsigned, is below 2048. -/
theorem idx_lt {F : FTy → Type} [FloatOps F] [Cert.Pre_finite_inputs.Facts]
    (a0 : FVec F S64x2048x512 .f32) (a1 : FVec F S64x1x512 .f32) (a2 : IVec S64x1x2048 1) (a3 : IVec S64 32)
    (a4 : FVec F S512x512 .f32) (a5 : FVec F S512x1024 .f32) (a6 : FVec F S512x512 .f32) (a7 : FVec F S512 .f32)
    (h : fn (F := F) a0 a1 a2 a3 a4 a5 a6 a7 = fun _ => 1#1) (b : Fin 64) :
    (a3 (ix1 b)).toNat < 2048 := by
  -- the claim read at the one scalar index
  have h0 := congrFun h ix0
  dsimp only [fn, fn_part1, fn_part2] at h0
  -- the last conjunct: the conjunction over all 64 positions of the two signed comparisons
  have h1 : _ = 1#1 := (IntOp.andi_eq_one.1 h0).2
  haveI : Subsingleton S_.Idx := ⟨fun a b => funext fun d => d.elim0⟩
  have h2 := Host.reduce_andi_all _ _ _ _ _ h1 (ix1 b)
  obtain ⟨hge, hlt⟩ := IntOp.andi_eq_one.1 h2
  -- at position b: 0 ≤ idx[b] and idx[b] < 2048 as signed words
  have hge' : (0#32 : BitVec 32).toInt ≤ (a3 (ix1 b)).toInt := IntOp.cmpi_sge.1 hge
  have hlt' : (a3 (ix1 b)).toInt < (2048#32 : BitVec 32).toInt := IntOp.cmpi_slt.1 hlt
  have e0 : (0#32 : BitVec 32).toInt = 0 := by decide
  have e1 : (2048#32 : BitVec 32).toInt = 2048 := by decide
  -- a non-negative signed word is its unsigned value
  have e := BitVec.toInt_eq_toNat_cond (a3 (ix1 b))
  have hb := (a3 (ix1 b)).isLt
  omega

end Cert.PreDecode

end
-- ==== Proof.Spec.lean ====
/-
  One attention step as functions of the argument arrays, index by index, on the extended reals.

  For batch row b:  the target row is projected, p[e] = Σ_d tgt[b,0,d] · W_lin[e,d];  its scores against the
  2048 source rows are a[s] = Σ_d p[d] · src[b,s,d];  position s is hit when s is the row's previous index
  or the input mask is set there;  a hit position's score is replaced by -∞;  the row's softmax is
  exp(a[s] - max a) / Σ_s' exp(a[s'] - max a), the maximum taken from -∞ and the sum from 0.
  Beside it the 1×1 convolution  c[b,o,s] = Σ_d W_conv[o,d] · src[b,s,d] + b_conv[o].

  The row-level functions take plain families over `Fin`; the array-level ones read them off the arrays.
-/
import Idealize.ShloMosaic.PureOps.Ideal
import Idealize.ShloMosaic.Lib.ValueIdx

noncomputable section

open scoped BigOperators

namespace Cert.AttnSpec

open Idealize.ShloMosaic Idealize.ShloMosaic.ValueIdx

/-! ## One row -/

/-- The projected target row: p[e] = Σ_d t[d] · W[e,d]. -/
def rowProj (t : Fin 512 → EReal) (wl : Fin 512 → Fin 512 → EReal) (e : Fin 512) : EReal :=
  ∑ d : Fin 512, t d * wl e d

/-- The row's score against source row s: Σ_d p[d] · S[s,d]. -/
def rowScore (t : Fin 512 → EReal) (wl : Fin 512 → Fin 512 → EReal) (sm : Fin 2048 → Fin 512 → EReal)
    (s : Fin 2048) : EReal :=
  ∑ d : Fin 512, rowProj t wl d * sm s d

/-- Position s is hit: it is the position the word w names, or the mask bit there is set. -/
def hitBit (w : BitVec 32) (mbit : BitVec 1) (s : Fin 2048) : BitVec 1 :=
  if BitVec.ofNat 32 s.val = w then 1#1 else mbit

/-- A hit position's score is -∞. -/
def rowMasked (h : Fin 2048 → BitVec 1) (a : Fin 2048 → EReal) (s : Fin 2048) : EReal :=
  if h s = 1#1 then ⊥ else a s

/-- The row's maximum, from -∞. -/
def rowMax (a : Fin 2048 → EReal) : EReal := (Finset.univ : Finset (Fin 2048)).fold max ⊥ a

/-- The softmax of a row of extended reals at position s. -/
def rowSoftmax (a : Fin 2048 → EReal) (s : Fin 2048) : EReal :=
  Ideal.div (Ideal.exp (a s - rowMax a)) (∑ s' : Fin 2048, Ideal.exp (a s' - rowMax a))

/-- The attention weights of one row. -/
def rowLogit (t : Fin 512 → EReal) (wl : Fin 512 → Fin 512 → EReal) (sm : Fin 2048 → Fin 512 → EReal)
    (h : Fin 2048 → BitVec 1) (s : Fin 2048) : EReal :=
  rowSoftmax (rowMasked h (rowScore t wl sm)) s

/-- The 1×1 convolution of one batch at output channel o and position s. -/
def convAt (wc : Fin 512 → Fin 512 → EReal) (sm : Fin 2048 → Fin 512 → EReal) (bias : Fin 512 → EReal)
    (o : Fin 512) (s : Fin 2048) : EReal :=
  (∑ d : Fin 512, wc o d * sm s d) + bias o

/-! ## The arrays -/

abbrev Ssrc : Shape := ⟨3, ![64, 2048, 512]⟩
abbrev Stgt : Shape := ⟨3, ![64, 1, 512]⟩
abbrev Smask : Shape := ⟨3, ![64, 1, 2048]⟩
abbrev Sidx : Shape := ⟨1, ![64]⟩
abbrev Sw : Shape := ⟨2, ![512, 512]⟩
abbrev Sbias : Shape := ⟨1, ![512]⟩
abbrev Sconv : Shape := ⟨3, ![64, 512, 2048]⟩

/-- The updated mask: bit (b, 0, s) is set when s is batch b's previous index or the input bit is set. -/
def Gmask (msk : Smask.Idx → BitVec 1) (idx : Sidx.Idx → BitVec 32) : Smask.Idx → BitVec 1 :=
  fun i => hitBit (idx (ix1 (i 0))) (msk (ix3 (i 0) (0 : Fin 1) (i 2))) (i 2)

/-- The attention weights: entry (b, 0, s) is row b's softmax at s. -/
def Glogits (src : Ssrc.Idx → EReal) (tgt : Stgt.Idx → EReal) (msk : Smask.Idx → BitVec 1)
    (idx : Sidx.Idx → BitVec 32) (wlin : Sw.Idx → EReal) : Smask.Idx → EReal :=
  fun i => rowLogit (fun d => tgt (ix3 (i 0) (0 : Fin 1) d)) (fun e d => wlin (ix2 e d))
    (fun s d => src (ix3 (i 0) s d)) (fun s => hitBit (idx (ix1 (i 0))) (msk (ix3 (i 0) (0 : Fin 1) s)) s) (i 2)

/-- The convolved source: entry (b, o, s). -/
def Gconv (src : Ssrc.Idx → EReal) (wconv : Sw.Idx → EReal) (bconv : Sbias.Idx → EReal) : Sconv.Idx → EReal :=
  fun i => convAt (fun o d => wconv (ix2 o d)) (fun s d => src (ix3 (i 0) s d)) (fun o => bconv (ix1 o)) (i 1) (i 2)

end Cert.AttnSpec

end
-- ==== Proof.LibHostIdx2.lean ====
import Idealize.ShloMosaic.PureOps
import Idealize.ShloMosaic.Lib.ValueIdx

/-!
# A row gather and a one-axis scatter, read at an index

Two host operations on tables of rows, each read at one index of its result.

* The ROW GATHER `y[r, :] = x[idx[r], :]` of an operand `x : [N, C]` at a column of start
  indices `idx : [R, 1]`: result element `(r, q)` is `x` at row `idx[r, 0]`, that word read as a
  signed integer and clamped into `[0, N − 1]`, and column `q`.
* The SCATTER `y = x.at[idx].set(u)` of updates `u : [R]` into an operand `x : [N]` at a column
  of indices `idx : [R, 1]`.  The operation is a left fold over the updates in order: update `r`
  replaces the element at position `idx[r, 0]` (read signed, not clamped; dropped when outside
  `[0, N)`).  The value left at a position is that of the LAST update that lands there.  When
  the indices are the words of an injective map `p` into `[0, N)`, exactly one update lands at
  `p r`, namely update `r`, so no later step of the fold touches that position again and the
  order in which the fold visits the updates does not matter: the result at `p r` is `u r`, and
  a position no `p r` equals keeps the operand's element.
-/

namespace Idealize.ShloMosaic.HostIdx2

open Idealize.ShloMosaic Idealize.ShloMosaic.ValueIdx

/-! ## Words of small numbers -/

/-- The word of a number below half the word range reads back, signed, as that number. -/
theorem toInt_ofNat_of_lt {w k : Nat} (hk : 2 * k < 2 ^ w) : (BitVec.ofNat w k).toInt = (k : Int) := by
  rw [BitVec.toInt_eq_toNat_cond, BitVec.toNat_ofNat]
  have h1 : k % 2 ^ w = k := Nat.mod_eq_of_lt (by omega)
  rw [h1, if_pos hk]

/-! ## The row gather -/

/-- THE ROW GATHER READ AT `(r, q)`: the operand at row `idx[r, 0]`, read signed and clamped into
    `[0, N − 1]`, and column `q`. -/
theorem gather_rows_apply {α : Type} {N R C w : Nat} (hN : 0 < N)
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C])
    (x : (⟨2, ![N, C]⟩ : Shape).Idx → α) (idx : IVec ⟨2, ![R, 1]⟩ w) (r : Fin R) (q : Fin C) :
    Host.gather d x idx (ix2 r q)
      = x (ix2 ⟨min (idx (ix2 r (0 : Fin 1))).toInt.toNat (N - 1), by omega⟩ q) := by
  obtain ⟨od, cd, ob, sb, sim, iv, ss, wf⟩ := d
  dsimp only at hod hcd hob hsb hsim hiv hss
  subst hod hcd hob hsb hsim hiv hss
  unfold Host.gather
  congr 1
  funext a
  refine Fin.ext ?_
  match a with
  | ⟨0, _⟩ =>
    show GatherDims.start _ (ix2 r q) idx 0 + GatherDims.batchCoord _ (ix2 r q) 0
      + GatherDims.offCoord _ (ix2 r q) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![R, 1]⟩) (t := ⟨2, ![R, C]⟩)
        ⟨[1], [0], [], [], [0], 1, ![1, C], wf⟩ (ix2 r q)
        ⟨List.idxOf (0 : Fin 2) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi]
    rfl
  | ⟨1, _⟩ =>
    show GatherDims.start _ (ix2 r q) idx 1 + GatherDims.batchCoord _ (ix2 r q) 1
      + GatherDims.offCoord _ (ix2 r q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

/-- The row gather at a start index that is the word of a row number `k < N`: row `k`. -/
theorem gather_rows_apply_of_eq {α : Type} {N R C w : Nat}
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C]) (hNw : 2 * N ≤ 2 ^ w)
    (x : (⟨2, ![N, C]⟩ : Shape).Idx → α) (idx : IVec ⟨2, ![R, 1]⟩ w) (r : Fin R) (q : Fin C)
    (k : Nat) (hk : k < N) (hidx : idx (ix2 r (0 : Fin 1)) = BitVec.ofNat w k) :
    Host.gather d x idx (ix2 r q) = x (ix2 ⟨k, hk⟩ q) := by
  rw [gather_rows_apply (by omega) d hod hcd hob hsb hsim hiv hss]
  congr 2
  refine Fin.ext ?_
  show min (idx (ix2 r (0 : Fin 1))).toInt.toNat (N - 1) = k
  rw [hidx, toInt_ofNat_of_lt (by omega)]
  simp only [Int.toNat_natCast]
  omega

/-! ## The scatter -/

/-- A left fold of point writes: a position that holds `c`, and at which every writer in the list
    writes `c`, holds `c` after the fold. -/
theorem foldl_set_inv {ι κ α : Type} [DecidableEq κ] (g : ι → κ) (v : ι → α) (k : κ) (c : α) :
    ∀ (l : List ι) (r : κ → α), (∀ n ∈ l, g n = k → v n = c) → r k = c →
      (l.foldl (fun r n => fun i' => if i' = g n then v n else r i') r) k = c
  | [], _, _, h => h
  | a :: l, r, hl, h => by
    rw [List.foldl_cons]
    refine foldl_set_inv g v k c l _ (fun n hn => hl n (List.mem_cons_of_mem _ hn)) ?_
    show (if k = g a then v a else r k) = c
    by_cases hk : k = g a
    · rw [if_pos hk]; exact hl a List.mem_cons_self hk.symm
    · rw [if_neg hk]; exact h

/-- A left fold of point writes, read at the position of a writer `n₀` of the list, all of whose
    co-writers write the same value: that value. -/
theorem foldl_set_hit {ι κ α : Type} [DecidableEq κ] (g : ι → κ) (v : ι → α) (n₀ : ι) :
    ∀ (l : List ι) (r : κ → α), n₀ ∈ l → (∀ n ∈ l, g n = g n₀ → v n = v n₀) →
      (l.foldl (fun r n => fun i' => if i' = g n then v n else r i') r) (g n₀) = v n₀
  | [], _, hm, _ => nomatch hm
  | a :: l, r, hm, hl => by
    rw [List.foldl_cons]
    by_cases ha : g a = g n₀
    · refine foldl_set_inv g v (g n₀) (v n₀) l _ (fun n hn => hl n (List.mem_cons_of_mem _ hn)) ?_
      show (if g n₀ = g a then v a else r (g n₀)) = v n₀
      rw [if_pos ha.symm]; exact hl a List.mem_cons_self ha
    · have hm' : n₀ ∈ l := by
        rcases List.mem_cons.1 hm with h | h
        · exact absurd (by rw [h]) ha
        · exact h
      exact foldl_set_hit g v n₀ l _ hm' (fun n hn => hl n (List.mem_cons_of_mem _ hn))

/-- Where update `r` lands: position `p r`. -/
theorem resultIdx_eq {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (idx : IVec ⟨2, ![R, 1]⟩ w)
    (p : Fin R → Nat) (hp : ∀ r, p r < N) (hidx : ∀ r, idx (ix2 r (0 : Fin 1)) = BitVec.ofNat w (p r))
    (r : Fin R) :
    d.resultIdx? (ix1 r) idx = some (ix1 ⟨p r, hp r⟩) := by
  obtain ⟨uw, iw, sd, iv, wf⟩ := d
  dsimp only at huw hiw hsd hiv
  subst huw hiw hsd hiv
  have hst : ∀ a, ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) = (p r : Int) := by
    intro a
    obtain rfl : a = 0 := Subsingleton.elim _ _
    unfold ScatterDims.start ScatterDims.window
    have hnk : (0 : Fin 1) ∉ ScatterDims.sKept (s := ⟨1, ![N]⟩) (si := ⟨2, ![R, 1]⟩) (u := ⟨1, ![R]⟩)
        ⟨[], [0], [0], 1, wf⟩ := by
      simp [ScatterDims.sKept, Shape.kept]
    rw [dif_pos (List.mem_singleton.mpr rfl), dif_neg hnk]
    have hsi : ScatterDims.siIdx (s := ⟨1, ![N]⟩) (si := ⟨2, ![R, 1]⟩) (u := ⟨1, ![R]⟩)
        ⟨[], [0], [0], 1, wf⟩ (ix1 r)
        ⟨List.idxOf (0 : Fin 1) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi, hidx, toInt_ofNat_of_lt (by have := hp r; omega)]
    simp
  unfold ScatterDims.resultIdx?
  have hall : ∀ a, 0 ≤ ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) ∧
      ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) < ((⟨1, ![N]⟩ : Shape).size a : Int) := by
    intro a
    rw [hst a]
    obtain rfl : a = 0 := Subsingleton.elim _ _
    have := hp r
    show (0 : Int) ≤ (p r : Int) ∧ (p r : Int) < ((N : Nat) : Int)
    omega
  rw [dif_pos hall]
  congr 1
  funext a
  refine Fin.ext ?_
  obtain rfl : a = 0 := Subsingleton.elim _ _
  show (ScatterDims.start _ (ix1 r) idx 0 + (ScatterDims.window _ (ix1 r) 0 : Nat)).toNat = p r
  rw [hst 0]
  simp

/-- THE SCATTER READ AT A HIT: when the indices are the words of an injective map `p` into
    `[0, N)`, position `p r` holds update `r`. -/
theorem scatter_set_apply_of_inj {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (hinj : Function.Injective p) (r : Fin R) :
    Host.scatter d (fun _ b => b) x idx u (ix1 ⟨p r, hp r⟩) = u (ix1 r) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have hco : ∀ n ∈ List.finRange (⟨1, ![R]⟩ : Shape).numel,
      (ix1 ⟨p (((⟨1, ![R]⟩ : Shape).rowMajor.symm n) 0), hp _⟩ : (⟨1, ![N]⟩ : Shape).Idx)
        = ix1 ⟨p (((⟨1, ![R]⟩ : Shape).rowMajor.symm ((⟨1, ![R]⟩ : Shape).rowMajor (ix1 r))) 0), hp _⟩ →
      u ((⟨1, ![R]⟩ : Shape).rowMajor.symm n)
        = u ((⟨1, ![R]⟩ : Shape).rowMajor.symm ((⟨1, ![R]⟩ : Shape).rowMajor (ix1 r))) := by
    intro n _ hn
    rw [Equiv.symm_apply_apply] at hn ⊢
    have h1 : p (((⟨1, ![R]⟩ : Shape).rowMajor.symm n) 0) = p r := congrArg Fin.val (congrFun hn 0)
    have h2 := hinj h1
    rw [eq_ix1 ((⟨1, ![R]⟩ : Shape).rowMajor.symm n), h2]
    rfl
  have key := foldl_set_hit
    (fun n => (ix1 ⟨p (((⟨1, ![R]⟩ : Shape).rowMajor.symm n) 0), hp _⟩ : (⟨1, ![N]⟩ : Shape).Idx))
    (fun n => u ((⟨1, ![R]⟩ : Shape).rowMajor.symm n))
    ((⟨1, ![R]⟩ : Shape).rowMajor (ix1 r)) (List.finRange _) x (List.mem_finRange _) hco
  simp only [Equiv.symm_apply_apply] at key
  unfold Host.scatter
  simp only [hA]
  exact key

/-- THE SCATTER READ AT A MISS: a position that is no `p r` keeps the operand's element. -/
theorem scatter_set_apply_of_miss {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (n : Fin N) (hn : ∀ r, p r ≠ n.val) :
    Host.scatter d (fun _ b => b) x idx u (ix1 n) = x (ix1 n) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have key := foldl_set_inv
    (fun m => (ix1 ⟨p (((⟨1, ![R]⟩ : Shape).rowMajor.symm m) 0), hp _⟩ : (⟨1, ![N]⟩ : Shape).Idx))
    (fun m => u ((⟨1, ![R]⟩ : Shape).rowMajor.symm m)) (ix1 n) (x (ix1 n)) (List.finRange _) x
    (fun m _ hm => absurd (congrArg Fin.val (congrFun hm 0)) (hn _)) rfl
  unfold Host.scatter
  simp only [hA]
  exact key

end Idealize.ShloMosaic.HostIdx2
-- ==== Proof.RefScatter.lean ====
/-
  The reference's updated mask, read at an index: the scatter writes `true` at (b, 0, idx[b]) for every batch b,
  so bit (b, 0, s) ends set when s = idx[b] and keeps the input bit otherwise.
-/
import proofs.«402281_j61795989455034_3_alg».proof.Proof.RefReadP
import proofs.«402281_j61795989455034_3_alg».proof.Proof.Spec
import proofs.«402281_j61795989455034_3_alg».proof.Proof.LibHostIdx2

noncomputable section

namespace Cert.RefSpec

open Idealize.ShloMosaic Idealize.ShloMosaic.ValueIdx Cert.ReferenceIdeal Cert.ReferenceIdeal.ReadP

/-- A word below half the word range is not negative as a signed word. -/
private theorem cmpi_slt_zero_of_lt (w : BitVec 32) (h : w.toNat < 2147483648) :
    IntOp.cmpi .slt w 0#32 = 0#1 := by
  have hI : w.toInt = (w.toNat : Int) := by
    rw [BitVec.toInt_eq_toNat_cond, if_pos (by omega)]
  have hs : w.slt 0#32 = false := by
    rw [BitVec.slt, hI]
    simp
  show BitVec.ofBool (w.slt 0#32) = 0#1
  rw [hs]
  rfl

/-- Column 0 of the scatter indices: the batch number. -/
private theorem idx_col0 (x3 : (⟨S64, .i32⟩ : BufTy).Contents (Elt Ideal)) (b : Fin 64) :
    val_main_v15 (F := Ideal) x3 (ix2 b (0 : Fin 2)) = BitVec.ofNat 32 b.val := by
  unfold val_main_v15
  rw [concatenate_pair_apply_left (t := S64x2) (s₁ := S64x1) (s₂ := S64x1) (1 : Fin S64x2.rank) _ _ _
    (ix2 b (0 : Fin 2)) rfl (ix2 b (0 : Fin 1))
    (fun c => by match c with | ⟨0, _⟩ => rfl | ⟨1, _⟩ => rfl)]
  rw [val_main_v13_apply, val_main_v7_apply, val_main_v4_apply, val_main_v2_apply, val_main_v3_apply, val_main_c_apply]
  rw [cmpi_slt_zero_of_lt _ (by rw [BitVec.toNat_ofNat]; have := b.isLt; show (b.val % 2 ^ 32) < _; omega), select_zero]

/-- Column 1 of the scatter indices: the previous index, a word that is not negative. -/
private theorem idx_col1 (x3 : (⟨S64, .i32⟩ : BufTy).Contents (Elt Ideal)) (b : Fin 64)
    (hb : (x3 (ix1 b)).toNat < 2048) :
    val_main_v15 (F := Ideal) x3 (ix2 b (1 : Fin 2)) = x3 (ix1 b) := by
  unfold val_main_v15
  rw [concatenate_pair_apply_right (t := S64x2) (s₁ := S64x1) (s₂ := S64x1) (1 : Fin S64x2.rank) _ _ _
    (ix2 b (1 : Fin 2)) rfl rfl (ix2 b (0 : Fin 1))
    (fun c hc => by match c with | ⟨0, _⟩ => rfl | ⟨1, _⟩ => exact absurd rfl hc) rfl]
  have e : idx_main_v14 (ix2 b (0 : Fin 1)) = ix1 b := by
    funext a; match a with | ⟨0, _⟩ => rfl
  rw [val_main_v14_apply, val_main_v12_apply, val_main_v9_apply, val_main_v8_apply, val_main_c_1_apply, e]
  rw [cmpi_slt_zero_of_lt _ (by omega), select_zero]

/-- Where update `j` lands: row `j 0`, the one middle position, and the column the row's index word names. -/
private theorem resultIdx_eq3 (d : ScatterDims S64x1x2048 S64x2 S64x1)
    (huw : d.updateWindowDims = [1]) (hiw : d.insertedWindowDims = [0, 2])
    (hsd : d.scatterDimsToOperandDims = [0, 2]) (hiv : d.indexVectorDim = 1)
    (idx : IVec S64x2 32) (p : Fin 64 → Fin 2048)
    (h0 : ∀ b : Fin 64, (idx (ix2 b (0 : Fin 2))).toInt = (b.val : Int))
    (h1 : ∀ b : Fin 64, (idx (ix2 b (1 : Fin 2))).toInt = ((p b).val : Int))
    (j : S64x1.Idx) :
    d.resultIdx? j idx = some (ix3 (j 0) (0 : Fin 1) (p (j 0))) := by
  obtain ⟨uw, iw, sd, iv, wf⟩ := d
  dsimp only at huw hiw hsd hiv
  subst huw hiw hsd hiv
  have m0 : (0 : Fin 3) ∈ ([0, 2] : List (Fin 3)) := by decide
  have m1 : (1 : Fin 3) ∉ ([0, 2] : List (Fin 3)) := by decide
  have m2 : (2 : Fin 3) ∈ ([0, 2] : List (Fin 3)) := by decide
  have k0 : (0 : Fin 3) ∉ S64x1x2048.kept [0, 2] := by decide
  have k1 : (1 : Fin 3) ∈ S64x1x2048.kept [0, 2] := by decide
  have k2 : (2 : Fin 3) ∉ S64x1x2048.kept [0, 2] := by decide
  have hsi0 : ScatterDims.siIdx (s := S64x1x2048) (si := S64x2) (u := S64x1) ⟨[1], [0, 2], [0, 2], 1, wf⟩ j
      ⟨List.idxOf (0 : Fin 3) [0, 2], List.idxOf_lt_length_iff.2 m0⟩ = ix2 (n0 := 64) (n1 := 2) (j 0) (0 : Fin 2) := by
    funext b; refine Fin.ext ?_
    match b with
    | ⟨0, _⟩ => rfl
    | ⟨1, _⟩ => rfl
  have hsi2 : ScatterDims.siIdx (s := S64x1x2048) (si := S64x2) (u := S64x1) ⟨[1], [0, 2], [0, 2], 1, wf⟩ j
      ⟨List.idxOf (2 : Fin 3) [0, 2], List.idxOf_lt_length_iff.2 m2⟩ = ix2 (n0 := 64) (n1 := 2) (j 0) (1 : Fin 2) := by
    funext b; refine Fin.ext ?_
    match b with
    | ⟨0, _⟩ => rfl
    | ⟨1, _⟩ => rfl
  have hj1 : (j 1).val = 0 := by
    have : (j 1).val < 1 := (j 1).isLt
    omega
  have hst0 : ScatterDims.start (s := S64x1x2048) (si := S64x2) (u := S64x1) ⟨[1], [0, 2], [0, 2], 1, wf⟩ j idx 0
      + (ScatterDims.window (s := S64x1x2048) (si := S64x2) (u := S64x1) ⟨[1], [0, 2], [0, 2], 1, wf⟩ j 0 : Nat)
        = ((j 0).val : Int) := by
    unfold ScatterDims.start ScatterDims.window
    rw [dif_pos m0, dif_neg k0, hsi0, h0 (j 0)]
    simp
  have hst1 : ScatterDims.start (s := S64x1x2048) (si := S64x2) (u := S64x1) ⟨[1], [0, 2], [0, 2], 1, wf⟩ j idx 1
      + (ScatterDims.window (s := S64x1x2048) (si := S64x2) (u := S64x1) ⟨[1], [0, 2], [0, 2], 1, wf⟩ j 1 : Nat)
        = ((0 : Nat) : Int) := by
    unfold ScatterDims.start ScatterDims.window
    rw [dif_neg m1, dif_pos k1]
    show (0 : Int) + ((j 1).val : Int) = ((0 : Nat) : Int)
    rw [hj1]; rfl
  have hst2 : ScatterDims.start (s := S64x1x2048) (si := S64x2) (u := S64x1) ⟨[1], [0, 2], [0, 2], 1, wf⟩ j idx 2
      + (ScatterDims.window (s := S64x1x2048) (si := S64x2) (u := S64x1) ⟨[1], [0, 2], [0, 2], 1, wf⟩ j 2 : Nat)
        = ((p (j 0)).val : Int) := by
    unfold ScatterDims.start ScatterDims.window
    rw [dif_pos m2, dif_neg k2, hsi2, h1 (j 0)]
    simp
  have hst : ∀ a, ScatterDims.start (s := S64x1x2048) (si := S64x2) (u := S64x1) ⟨[1], [0, 2], [0, 2], 1, wf⟩ j idx a
      + (ScatterDims.window (s := S64x1x2048) (si := S64x2) (u := S64x1) ⟨[1], [0, 2], [0, 2], 1, wf⟩ j a : Nat)
        = (((ix3 (j 0) (0 : Fin 1) (p (j 0)) : S64x1x2048.Idx) a).val : Int) := by
    intro a
    match a with
    | ⟨0, _⟩ => exact hst0
    | ⟨1, _⟩ => exact hst1
    | ⟨2, _⟩ => exact hst2
  unfold ScatterDims.resultIdx?
  rw [dif_pos (fun a => by rw [hst a]; exact ⟨Int.natCast_nonneg _, Int.ofNat_lt.2 (Fin.isLt _)⟩)]
  congr 1
  funext a
  refine Fin.ext ?_
  show (ScatterDims.start _ j idx a + (ScatterDims.window _ j a : Nat)).toNat = _
  rw [hst a]
  exact Int.toNat_natCast _

/-- The reference's third result is the specification's updated mask, for previous indices inside the axis. -/
theorem ref_mask (x2 : (⟨S64x1x2048, .i1⟩ : BufTy).Contents (Elt Ideal)) (x3 : (⟨S64, .i32⟩ : BufTy).Contents (Elt Ideal))
    (hidx : ∀ b : Fin 64, (x3 (ix1 b)).toNat < 2048) :
    val_main_v17 (F := Ideal) x2 x3 = Cert.AttnSpec.Gmask x2 x3 := by
  -- every update lands in its own row, at the column the row's word names
  have hA : ∀ j : S64x1.Idx,
      scatter_S64x1x2048_S64x2_S64x1_1_02_02_1.resultIdx? j (val_main_v15 (F := Ideal) x3)
        = some (ix3 (j 0) (0 : Fin 1) (⟨(x3 (ix1 (j 0))).toNat, hidx (j 0)⟩ : Fin 2048)) := by
    intro j
    refine resultIdx_eq3 _ rfl rfl rfl rfl _ (fun b => ⟨(x3 (ix1 b)).toNat, hidx b⟩) (fun b => ?_) (fun b => ?_) j
    · rw [idx_col0, HostIdx2.toInt_ofNat_of_lt (by have := b.isLt; omega)]
    · rw [idx_col1 x3 b (hidx b), BitVec.toInt_eq_toNat_cond, if_pos (by have := hidx b; omega)]
  -- every update is the set bit
  have hu : (val_main_v16 (F := Ideal)) = fun _ => 1#1 := by
    funext j; rw [val_main_v16_apply, val_main_c_3_apply]
  funext i
  have h2 : (i 2).val < 2048 := (i 2).isLt
  have hi : i = ix3 (i 0) (0 : Fin 1) (i 2) := by
    funext a
    match a with
    | ⟨0, _⟩ => rfl
    | ⟨1, _⟩ => exact Fin.ext (by have h : (i 1).val < 1 := (i 1).isLt; show (i 1).val = 0; omega)
    | ⟨2, _⟩ => rfl
  unfold val_main_v17 Host.scatter
  simp only [hA, hu]
  show _ = AttnSpec.hitBit (x3 (ix1 (i 0))) (x2 (ix3 (i 0) (0 : Fin 1) (i 2))) (i 2)
  unfold AttnSpec.hitBit
  by_cases hs : (i 2).val = (x3 (ix1 (i 0))).toNat
  · -- the position the row's word names: the row's own update writes it
    have hw : BitVec.ofNat 32 (i 2).val = x3 (ix1 (i 0)) := by
      apply BitVec.eq_of_toNat_eq
      rw [BitVec.toNat_ofNat, ← hs]
      exact Nat.mod_eq_of_lt (by omega)
    rw [if_pos hw]
    have key := HostIdx2.foldl_set_hit
      (fun n => (ix3 ((S64x1.rowMajor.symm n) 0) (0 : Fin 1)
        (⟨(x3 (ix1 ((S64x1.rowMajor.symm n) 0))).toNat, hidx _⟩ : Fin 2048) : S64x1x2048.Idx))
      (fun _ => (1#1 : BitVec 1))
      (S64x1.rowMajor (ix2 (i 0) (0 : Fin 1))) (List.finRange _) x2 (List.mem_finRange _) (fun _ _ _ => rfl)
    have hg : i = (ix3 ((S64x1.rowMajor.symm (S64x1.rowMajor (ix2 (i 0) (0 : Fin 1)))) 0) (0 : Fin 1)
        (⟨(x3 (ix1 ((S64x1.rowMajor.symm (S64x1.rowMajor (ix2 (i 0) (0 : Fin 1)))) 0))).toNat, hidx _⟩ : Fin 2048)
          : S64x1x2048.Idx) := by
      rw [Equiv.symm_apply_apply]
      funext a
      match a with
      | ⟨0, _⟩ => rfl
      | ⟨1, _⟩ => exact Fin.ext (by have h : (i 1).val < 1 := (i 1).isLt; show (i 1).val = 0; omega)
      | ⟨2, _⟩ => exact Fin.ext hs
    exact (congrArg _ hg).trans key
  · -- any other position: no update reaches it
    have hw : ¬ BitVec.ofNat 32 (i 2).val = x3 (ix1 (i 0)) := by
      intro h
      have h' := congrArg BitVec.toNat h
      rw [BitVec.toNat_ofNat, Nat.mod_eq_of_lt (by omega)] at h'
      exact hs h'
    rw [if_neg hw]
    refine Eq.trans ?_ (congrArg x2 hi)
    exact HostIdx2.foldl_set_inv
      (fun n => (ix3 ((S64x1.rowMajor.symm n) 0) (0 : Fin 1)
        (⟨(x3 (ix1 ((S64x1.rowMajor.symm n) 0))).toNat, hidx _⟩ : Fin 2048) : S64x1x2048.Idx))
      (fun _ => (1#1 : BitVec 1)) i (x2 i) (List.finRange _) x2
      (fun n _ hn => by
        have e0 : (S64x1.rowMajor.symm n) 0 = i 0 := congrFun hn 0
        have e2 : (x3 (ix1 ((S64x1.rowMajor.symm n) 0))).toNat = (i 2).val := congrArg Fin.val (congrFun hn 2)
        rw [e0] at e2
        exact absurd e2.symm hs) rfl

end Cert.RefSpec

end
-- ==== Proof.RefValue.lean ====
/-
  The reference's float results, read at an index, are the specification's.
-/
import proofs.«402281_j61795989455034_3_alg».proof.Proof.RefScatter

noncomputable section

namespace Cert.RefSpec

open Idealize.ShloMosaic Idealize.ShloMosaic.ValueIdx Cert.ReferenceIdeal Cert.ReferenceIdeal.ReadP

open scoped BigOperators

/-! ## The attention weights -/

/-- The word 0xFF800000 is -∞. -/
private theorem negInf_f32 : Ideal.ofBits .f32 0xFF800000#32 = (⊥ : EReal) := by simp [Ideal.ofBits, Ideal.ieee]

/-- Batch row b's scores after masking, as the specification writes them. -/
private def maskedRow (x0 : (⟨S64x2048x512, .f32⟩ : BufTy).Contents (Elt Ideal)) (x1 : (⟨S64x1x512, .f32⟩ : BufTy).Contents (Elt Ideal))
    (x2 : (⟨S64x1x2048, .i1⟩ : BufTy).Contents (Elt Ideal)) (x3 : (⟨S64, .i32⟩ : BufTy).Contents (Elt Ideal))
    (x4 : (⟨S512x512, .f32⟩ : BufTy).Contents (Elt Ideal)) (b : Fin 64) : Fin 2048 → EReal :=
  Cert.AttnSpec.rowMasked (fun s => Cert.AttnSpec.hitBit (x3 (ix1 b)) (x2 (ix3 b (0 : Fin 1) s)) s)
    (Cert.AttnSpec.rowScore (fun d => x1 (ix3 b (0 : Fin 1) d)) (fun e d => x4 (ix2 e d)) (fun s d => x0 (ix3 b s d)))

/-- The projected target at (b, 0, e). -/
private theorem proj_at (x1 : (⟨S64x1x512, .f32⟩ : BufTy).Contents (Elt Ideal)) (x4 : (⟨S512x512, .f32⟩ : BufTy).Contents (Elt Ideal)) (b : Fin 64) (e : Fin 512) :
    val_main_v0 (F := Ideal) x1 x4 (ix3 b (0 : Fin 1) e)
      = Cert.AttnSpec.rowProj (fun d => x1 (ix3 b (0 : Fin 1) d)) (fun e d => x4 (ix2 e d)) e := by
  rw [val_main_v0_apply]
  unfold Cert.AttnSpec.rowProj
  refine Finset.sum_congr rfl fun k _ => ?_
  have e1 : lidx_main_v0 (ix3 b (0 : Fin 1) e) k = ix3 b (0 : Fin 1) k :=
    funext fun a => Fin.ext (by match a with | ⟨0, _⟩ => rfl | ⟨1, _⟩ => rfl | ⟨2, _⟩ => rfl)
  have e2 : ridx_main_v0 (ix3 b (0 : Fin 1) e) k = ix2 e k :=
    funext fun a => Fin.ext (by match a with | ⟨0, _⟩ => rfl | ⟨1, _⟩ => rfl)
  rw [e1, e2]

/-- The score at (b, 0, s). -/
private theorem score_at (x0 : (⟨S64x2048x512, .f32⟩ : BufTy).Contents (Elt Ideal)) (x1 : (⟨S64x1x512, .f32⟩ : BufTy).Contents (Elt Ideal)) (x4 : (⟨S512x512, .f32⟩ : BufTy).Contents (Elt Ideal)) (b : Fin 64) (s : Fin 2048) :
    val_main_v1 (F := Ideal) x0 x1 x4 (ix3 b (0 : Fin 1) s)
      = Cert.AttnSpec.rowScore (fun d => x1 (ix3 b (0 : Fin 1) d)) (fun e d => x4 (ix2 e d)) (fun s d => x0 (ix3 b s d)) s := by
  rw [val_main_v1_apply]
  unfold Cert.AttnSpec.rowScore
  refine Finset.sum_congr rfl fun k _ => ?_
  have e1 : lidx_main_v1 (ix3 b (0 : Fin 1) s) k = ix3 b (0 : Fin 1) k :=
    funext fun a => Fin.ext (by match a with | ⟨0, _⟩ => rfl | ⟨1, _⟩ => rfl | ⟨2, _⟩ => rfl)
  have e2 : ridx_main_v1 (ix3 b (0 : Fin 1) s) k = ix3 b s k :=
    funext fun a => Fin.ext (by match a with | ⟨0, _⟩ => rfl | ⟨1, _⟩ => rfl | ⟨2, _⟩ => rfl)
  rw [e1, e2, proj_at]

/-- The masked score at (b, 0, s). -/
private theorem masked_at (x0 : (⟨S64x2048x512, .f32⟩ : BufTy).Contents (Elt Ideal)) (x1 : (⟨S64x1x512, .f32⟩ : BufTy).Contents (Elt Ideal))
    (x2 : (⟨S64x1x2048, .i1⟩ : BufTy).Contents (Elt Ideal)) (x3 : (⟨S64, .i32⟩ : BufTy).Contents (Elt Ideal))
    (x4 : (⟨S512x512, .f32⟩ : BufTy).Contents (Elt Ideal)) (hidx : ∀ b : Fin 64, (x3 (ix1 b)).toNat < 2048) (b : Fin 64) (s : Fin 2048) :
    val_main_v18 (F := Ideal) x0 x1 x2 x3 x4 (ix3 b (0 : Fin 1) s) = maskedRow x0 x1 x2 x3 x4 b s := by
  rw [val_main_v18_apply, ref_mask x2 x3 hidx, val_main_call0_v1_apply, val_main_call0_v0_apply, val_main_cst_apply,
    score_at, Ideal.ofBits_def, negInf_f32]
  rfl

/-- A fold of the float maximum from -∞ over a reindexed family is the fold of `max` over a pointwise equal one. -/
private theorem fold_maximumf_congr {n : Nat} {ι : Type} (f : ι → EReal) (l : Fin n → ι) (g : Fin n → EReal)
    (hfg : ∀ k, f (l k) = g k) :
    Finset.fold (FloatOps.maximumf (F := Ideal) (φ := .f32)) (⊥ : EReal) (f ∘ l) Finset.univ
      = Finset.fold max (⊥ : EReal) g Finset.univ := by
  rw [show f ∘ l = g from funext hfg]; rfl

/-- The row maximum at (b, 0), as the reduction computes it. -/
private theorem max_at (x0 : (⟨S64x2048x512, .f32⟩ : BufTy).Contents (Elt Ideal)) (x1 : (⟨S64x1x512, .f32⟩ : BufTy).Contents (Elt Ideal))
    (x2 : (⟨S64x1x2048, .i1⟩ : BufTy).Contents (Elt Ideal)) (x3 : (⟨S64, .i32⟩ : BufTy).Contents (Elt Ideal))
    (x4 : (⟨S512x512, .f32⟩ : BufTy).Contents (Elt Ideal)) (hidx : ∀ b : Fin 64, (x3 (ix1 b)).toNat < 2048) (b : Fin 64) :
    val_main_v21 (F := Ideal) x0 x1 x2 x3 x4 (ix2 b (0 : Fin 1)) = Cert.AttnSpec.rowMax (maskedRow x0 x1 x2 x3 x4 b) := by
  have h : S64x1x2048.Reduces [2] S64x1 := by decide
  rw [val_main_v21_apply, val_main_v20_apply, val_main_cst_5_apply]
  unfold val_main_v19
  rw [Host.reduce_eq_fold_single (FloatOps.maximumf (F := Ideal) (φ := .f32)) _ _ Gen.reducesTo_S64x1x2048_S64x1_d2 h Gen.h_S_,
    val_main_cst_4_apply, Ideal.ofBits_def, negInf_f32, Ideal.maximumf_def, max_bot_left]
  refine fold_maximumf_congr (n := 2048) _ _ _ fun k => ?_
  have e1 : h.lift (ix2 b (0 : Fin 1)) k = ix3 b (0 : Fin 1) k :=
    funext fun a => Fin.ext (by match a with | ⟨0, _⟩ => rfl | ⟨1, _⟩ => rfl | ⟨2, _⟩ => rfl)
  rw [e1, masked_at x0 x1 x2 x3 x4 hidx]

/-- The exponential at (b, 0, s). -/
private theorem exp_at (x0 : (⟨S64x2048x512, .f32⟩ : BufTy).Contents (Elt Ideal)) (x1 : (⟨S64x1x512, .f32⟩ : BufTy).Contents (Elt Ideal))
    (x2 : (⟨S64x1x2048, .i1⟩ : BufTy).Contents (Elt Ideal)) (x3 : (⟨S64, .i32⟩ : BufTy).Contents (Elt Ideal))
    (x4 : (⟨S512x512, .f32⟩ : BufTy).Contents (Elt Ideal)) (hidx : ∀ b : Fin 64, (x3 (ix1 b)).toNat < 2048) (b : Fin 64) (s : Fin 2048) :
    val_main_v25 (F := Ideal) x0 x1 x2 x3 x4 (ix3 b (0 : Fin 1) s)
      = Ideal.exp (maskedRow x0 x1 x2 x3 x4 b s - Cert.AttnSpec.rowMax (maskedRow x0 x1 x2 x3 x4 b)) := by
  have e1 : idx_main_v22 (idx_main_v23 (ix3 b (0 : Fin 1) s)) = ix2 b (0 : Fin 1) :=
    funext fun a => Fin.ext (by match a with | ⟨0, _⟩ => rfl | ⟨1, _⟩ => rfl)
  rw [val_main_v25_apply, val_main_v24_apply, val_main_v23_apply, val_main_v22_apply, e1, masked_at x0 x1 x2 x3 x4 hidx,
    max_at x0 x1 x2 x3 x4 hidx, Ideal.hostUnary_exp_def, Ideal.subf_def]

/-- The normaliser at (b, 0). -/
private theorem sum_at (x0 : (⟨S64x2048x512, .f32⟩ : BufTy).Contents (Elt Ideal)) (x1 : (⟨S64x1x512, .f32⟩ : BufTy).Contents (Elt Ideal))
    (x2 : (⟨S64x1x2048, .i1⟩ : BufTy).Contents (Elt Ideal)) (x3 : (⟨S64, .i32⟩ : BufTy).Contents (Elt Ideal))
    (x4 : (⟨S512x512, .f32⟩ : BufTy).Contents (Elt Ideal)) (hidx : ∀ b : Fin 64, (x3 (ix1 b)).toNat < 2048) (b : Fin 64) :
    val_main_v26 (F := Ideal) x0 x1 x2 x3 x4 (ix2 b (0 : Fin 1))
      = ∑ s' : Fin 2048, Ideal.exp (maskedRow x0 x1 x2 x3 x4 b s' - Cert.AttnSpec.rowMax (maskedRow x0 x1 x2 x3 x4 b)) := by
  rw [val_main_v26_apply, val_main_cst_6_apply, Ideal.ofBits_def, Ideal.ofBits_zero_f32, zero_add]
  refine Finset.sum_congr rfl fun k _ => ?_
  have e1 : idx_main_v26 (ix2 b (0 : Fin 1)) k = ix3 b (0 : Fin 1) k :=
    funext fun a => Fin.ext (by match a with | ⟨0, _⟩ => rfl | ⟨1, _⟩ => rfl | ⟨2, _⟩ => rfl)
  rw [e1, exp_at x0 x1 x2 x3 x4 hidx]

/-- The reference's second result is the specification's attention weights. -/
theorem ref_logits (x0 : (⟨S64x2048x512, .f32⟩ : BufTy).Contents (Elt Ideal)) (x1 : (⟨S64x1x512, .f32⟩ : BufTy).Contents (Elt Ideal))
    (x2 : (⟨S64x1x2048, .i1⟩ : BufTy).Contents (Elt Ideal)) (x3 : (⟨S64, .i32⟩ : BufTy).Contents (Elt Ideal))
    (x4 : (⟨S512x512, .f32⟩ : BufTy).Contents (Elt Ideal)) (hidx : ∀ b : Fin 64, (x3 (ix1 b)).toNat < 2048) :
    val_main_v29 (F := Ideal) x0 x1 x2 x3 x4 = Cert.AttnSpec.Glogits x0 x1 x2 x3 x4 := by
  funext i
  obtain ⟨b, z, s, rfl⟩ : ∃ (b : Fin 64) (z : Fin 1) (s : Fin 2048), i = ix3 b z s := ⟨i 0, i 1, i 2, eq_ix3 i⟩
  obtain rfl : z = 0 := Fin.eq_zero z
  have e1 : idx_main_v27 (idx_main_v28 (ix3 b (0 : Fin 1) s)) = ix2 b (0 : Fin 1) :=
    funext fun a => Fin.ext (by match a with | ⟨0, _⟩ => rfl | ⟨1, _⟩ => rfl)
  rw [val_main_v29_apply, val_main_v28_apply, val_main_v27_apply, e1, exp_at x0 x1 x2 x3 x4 hidx, sum_at x0 x1 x2 x3 x4 hidx,
    Ideal.hostDivf_def]
  rfl

/-! ## The convolved source -/

/-- The reference's first result is the specification's convolved source. -/
theorem ref_conv (x0 : (⟨S64x2048x512, .f32⟩ : BufTy).Contents (Elt Ideal)) (x6 : (⟨S512x512, .f32⟩ : BufTy).Contents (Elt Ideal))
    (x7 : (⟨S512, .f32⟩ : BufTy).Contents (Elt Ideal)) :
    val_main_v37 (F := Ideal) x0 x6 x7 = Cert.AttnSpec.Gconv x0 x6 x7 := by
  funext i
  obtain ⟨b, o, s, rfl⟩ : ∃ (b : Fin 64) (o : Fin 512) (s : Fin 2048), i = ix3 b o s := ⟨i 0, i 1, i 2, eq_ix3 i⟩
  have e1 : ∀ k : Fin 512, lidx_main_v33 (idx_main_v34 (ix3 b o s)) k = ix3 b s k := fun k =>
    funext fun a => Fin.ext (by match a with | ⟨0, _⟩ => rfl | ⟨1, _⟩ => rfl | ⟨2, _⟩ => rfl)
  have e2 : ∀ k : Fin 512, ridx_main_v33 (idx_main_v34 (ix3 b o s)) k = ix2 o k := fun k =>
    funext fun a => Fin.ext (by match a with | ⟨0, _⟩ => rfl | ⟨1, _⟩ => rfl)
  have e3 : idx_main_v35 (idx_main_v36 (ix3 b o s)) = ix1 o :=
    funext fun a => Fin.ext (by match a with | ⟨0, _⟩ => rfl)
  rw [val_main_v37_apply, val_main_v34_apply, val_main_v33_apply, val_main_v36_apply, val_main_v35_apply]
  simp only [e1, e2, e3, Ideal.addf_def]
  show _ = (∑ d : Fin 512, x6 (ix2 o d) * x0 (ix3 b s d)) + x7 (ix1 o)
  exact congrArg (· + x7 (ix1 o)) (Finset.sum_congr rfl fun d _ => mul_comm _ _)

end Cert.RefSpec

end
-- ==== Proof.LibTwoRows.lean ====
import Idealize.ShloMosaic.Lib.Writes
import Idealize.ShloMosaic.Lib.ValueIdx

/-!
# A block of two rows, stored one row at a time, read at an index

A buffer of shape [2, A, B] receives two stores, each of one whole row [1, A, B]: row 1 and row 0, through
the unit-stride rectangles at offsets (1, 0, 0) and (0, 0, 0).  The two rectangles tile the block, so whatever the
buffer held before, the element at (r, a, b) afterwards is the row-r store's payload at (0, a, b).
-/

namespace Idealize.ShloMosaic.TwoRows

open Idealize.ShloMosaic Idealize.ShloMosaic.ValueIdx

variable {sig : RefSig} {κ : Kind} {sp : Space} {Val : EltTy → Type} {e : EltTy} {A B : Nat}

/-- A row index of a [1, A, B] payload, from a block index's last two coordinates. -/
abbrev rowIdx (y : (⟨3, ![2, A, B]⟩ : Shape).Idx) : (⟨3, ![1, A, B]⟩ : Shape).Idx :=
  ix3 (0 : Fin 1) (y 1) (y 2)

/-- THE TWO ROWS READ BACK: after the row-1 store and the row-0 store (in either order of the list's two pieces,
    here row 1 listed first), the block's element at `y` is row `y 0`'s payload at `(0, y 1, y 2)`. -/
theorem read_writes_two_rows (v : View sig κ sp (⟨3, ![2, A, B]⟩ : Shape) e) (f : v.ty.Contents Val)
    (inb1 : ∀ a, (![1, 0, 0] : Fin 3 → Nat) a + (![1, A, B] : Fin 3 → Nat) a ≤ (⟨3, ![2, A, B]⟩ : Shape).size a)
    (inb0 : ∀ a, (![0, 0, 0] : Fin 3 → Nat) a + (![1, A, B] : Fin 3 → Nat) a ≤ (⟨3, ![2, A, B]⟩ : Shape).size a)
    (P1 P0 : (⟨3, ![1, A, B]⟩ : Shape).Idx → Val e) (y : (⟨3, ![2, A, B]⟩ : Shape).Idx) :
    v.read Val (v.writes Val f
        [(⟨Rect.unit ![1, 0, 0] ![1, A, B] inb1, P1⟩ : View.Piece Val (⟨3, ![2, A, B]⟩ : Shape) e),
         (⟨Rect.unit ![0, 0, 0] ![1, A, B] inb0, P0⟩ : View.Piece Val (⟨3, ![2, A, B]⟩ : Shape) e)]) y
      = if (y 0).val = 0 then P0 (rowIdx y) else P1 (rowIdx y) := by
  refine View.read_writes_apply_of_pieces v f
    (fun y => if (y 0).val = 0 then P0 (rowIdx y) else P1 (rowIdx y)) _ ?_ y ?_
  · intro p hp x
    rcases List.mem_cons.mp hp with rfl | hp
    · have h0 : ((Rect.unit (s := (⟨3, ![2, A, B]⟩ : Shape)) ![1, 0, 0] ![1, A, B] inb1).emb x (0 : Fin 3)).val = 1 := by
        have hx : (x (0 : Fin 3)).val < 1 := (x 0).isLt
        rw [Rect.emb_apply]
        show 1 + 1 * (x (0 : Fin 3)).val = 1
        omega
      show P1 x = if _ then _ else _
      rw [if_neg (by rw [h0]; decide)]
      refine congrArg P1 ?_
      funext a
      apply Fin.ext
      match a with
      | ⟨0, _⟩ => show (x (0 : Fin 3)).val = 0; have hx : (x (0 : Fin 3)).val < 1 := (x 0).isLt; omega
      | ⟨1, _⟩ => show (x (1 : Fin 3)).val = 0 + 1 * (x (1 : Fin 3)).val; omega
      | ⟨2, _⟩ => show (x (2 : Fin 3)).val = 0 + 1 * (x (2 : Fin 3)).val; omega
    · rcases List.mem_cons.mp hp with rfl | hp
      · have h0 : ((Rect.unit (s := (⟨3, ![2, A, B]⟩ : Shape)) ![0, 0, 0] ![1, A, B] inb0).emb x (0 : Fin 3)).val = 0 := by
          have hx : (x (0 : Fin 3)).val < 1 := (x 0).isLt
          rw [Rect.emb_apply]
          show 0 + 1 * (x (0 : Fin 3)).val = 0
          omega
        show P0 x = if _ then _ else _
        rw [if_pos h0]
        refine congrArg P0 ?_
        funext a
        apply Fin.ext
        match a with
        | ⟨0, _⟩ => show (x (0 : Fin 3)).val = 0; have hx : (x (0 : Fin 3)).val < 1 := (x 0).isLt; omega
        | ⟨1, _⟩ => show (x (1 : Fin 3)).val = 0 + 1 * (x (1 : Fin 3)).val; omega
        | ⟨2, _⟩ => show (x (2 : Fin 3)).val = 0 + 1 * (x (2 : Fin 3)).val; omega
      · exact absurd hp List.not_mem_nil
  · have hy0 : (y (0 : Fin 3)).val < 2 := (y 0).isLt
    have hy1 : (y (1 : Fin 3)).val < A := (y 1).isLt
    have hy2 : (y (2 : Fin 3)).val < B := (y 2).isLt
    by_cases h : (y (0 : Fin 3)).val = 0
    · refine ⟨_, List.mem_cons_of_mem _ List.mem_cons_self, ?_⟩
      rw [Rect.mem_set_unit]
      intro a
      match a with
      | ⟨0, _⟩ => show 0 ≤ (y (0 : Fin 3)).val ∧ (y (0 : Fin 3)).val < 0 + 1; omega
      | ⟨1, _⟩ => show 0 ≤ (y (1 : Fin 3)).val ∧ (y (1 : Fin 3)).val < 0 + A; omega
      | ⟨2, _⟩ => show 0 ≤ (y (2 : Fin 3)).val ∧ (y (2 : Fin 3)).val < 0 + B; omega
    · refine ⟨_, List.mem_cons_self, ?_⟩
      rw [Rect.mem_set_unit]
      intro a
      match a with
      | ⟨0, _⟩ => show 1 ≤ (y (0 : Fin 3)).val ∧ (y (0 : Fin 3)).val < 1 + 1; omega
      | ⟨1, _⟩ => show 0 ≤ (y (1 : Fin 3)).val ∧ (y (1 : Fin 3)).val < 0 + A; omega
      | ⟨2, _⟩ => show 0 ≤ (y (2 : Fin 3)).val ∧ (y (2 : Fin 3)).val < 0 + B; omega

/-- Row 0's rectangle places its index (0, a, b) at the block's (0, a, b). -/
theorem idx_row0 (inb0 : ∀ a, (![0, 0, 0] : Fin 3 → Nat) a + (![1, A, B] : Fin 3 → Nat) a ≤ (⟨3, ![2, A, B]⟩ : Shape).size a)
    (a : Fin A) (b : Fin B) :
    (Rect.unit (s := (⟨3, ![2, A, B]⟩ : Shape)) ![0, 0, 0] ![1, A, B] inb0).idx (ix3 (0 : Fin 1) a b) = ix3 (0 : Fin 2) a b := by
  funext d
  apply Fin.ext
  match d with
  | ⟨0, _⟩ => rfl
  | ⟨1, _⟩ => show 0 + 1 * a.val = a.val; omega
  | ⟨2, _⟩ => show 0 + 1 * b.val = b.val; omega

/-- Row 1's rectangle places its index (0, a, b) at the block's (1, a, b). -/
theorem idx_row1 (inb1 : ∀ a, (![1, 0, 0] : Fin 3 → Nat) a + (![1, A, B] : Fin 3 → Nat) a ≤ (⟨3, ![2, A, B]⟩ : Shape).size a)
    (a : Fin A) (b : Fin B) :
    (Rect.unit (s := (⟨3, ![2, A, B]⟩ : Shape)) ![1, 0, 0] ![1, A, B] inb1).idx (ix3 (0 : Fin 1) a b) = ix3 (1 : Fin 2) a b := by
  funext d
  apply Fin.ext
  match d with
  | ⟨0, _⟩ => rfl
  | ⟨1, _⟩ => show 0 + 1 * a.val = a.val; omega
  | ⟨2, _⟩ => show 0 + 1 * b.val = b.val; omega

/-- With one middle coordinate, the row index of (r, 0, b) is (0, 0, b). -/
theorem rowIdx_mid_one (y : (⟨3, ![2, 1, B]⟩ : Shape).Idx) : rowIdx y = ix3 (0 : Fin 1) (0 : Fin 1) (y 2) := by
  funext d
  apply Fin.ext
  match d with
  | ⟨0, _⟩ => rfl
  | ⟨1, _⟩ => show (y (1 : Fin 3)).val = 0; have h : (y (1 : Fin 3)).val < 1 := (y 1).isLt; omega
  | ⟨2, _⟩ => rfl

end Idealize.ShloMosaic.TwoRows
-- ==== Proof.KernelHit.lean ====
/-
  The kernel body's integer and convolution payloads, read at an index, for either of the step's two batch slots.

  The hit row is (lane = w) ∨ (mask word ≠ 0): for a mask word that is the zero-extension of a bit it is the
  specification's hit bit.  The stored mask row is its zero-extension to 32 bits.  The convolution payload is the
  weight block times the transposed source block into a zero accumulator, plus the bias column broadcast along the
  positions: Σ_d W[o,d] · S[s,d] + bias[o].
-/
import proofs.«402281_j61795989455034_3_alg».proof.Proof.Gen.KernelIdeal.Skeleton
import proofs.«402281_j61795989455034_3_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelRows

open Idealize.ShloMosaic Idealize.ShloMosaic.ValueIdx Cert.KernelIdeal Cert.KernelIdeal.Gen Cert.AttnSpec

/-- The nonzero test of a bit's zero-extension is the bit. -/
private theorem cmpi_ne_setWidth (m : BitVec 1) : IntOp.cmpi .ne (m.setWidth 32) 0#32 = m := by
  by_cases h : m = 1#1
  · subst h; decide
  · rw [eq_zero_of_ne_one h]; decide

/-- (a = w) ∨ (the bit's zero-extension ≠ 0), as one-bit words, is 1 when a = w and the bit otherwise. -/
private theorem hit_word (a w : BitVec 32) (m : BitVec 1) :
    IntOp.ori (IntOp.cmpi .eq a w) (IntOp.cmpi .ne (m.setWidth 32) 0#32) = if a = w then 1#1 else m := by
  rw [cmpi_ne_setWidth]
  show BitVec.ofBool (a == w) ||| m = _
  by_cases h : a = w
  · rw [if_pos h, beq_iff_eq.mpr h]
    by_cases hm : m = 1#1
    · subst hm; decide
    · rw [eq_zero_of_ne_one hm]; decide
  · rw [if_neg h, beq_eq_false_iff_ne.mpr h]
    exact BitVec.zero_or

/-- The hit row, for either slot: (lane = w) ∨ (mask word ≠ 0) at lane s is the specification's hit bit. -/
private theorem hitRow (w : BitVec 32) (v : Vec Ideal S1x1x2048 .i32) (mb : Fin 2048 → BitVec 1)
    (hm : ∀ s : Fin 2048, v (ix3 (0 : Fin 1) (0 : Fin 1) s) = (mb s).setWidth 32) (s : Fin 2048) :
    ori (cmpi .eq (iota .tc S1x2048 32 [1] iota_S1x2048_d1_w32) (broadcast S1x2048 w))
        (cmpi .ne (shapeCast S1x2048 v shapeCasts_S1x1x2048_S1x2048) (broadcast S1x2048 0#32)) (ix2 (0 : Fin 1) s)
      = hitBit w (mb s) s := by
  show IntOp.ori (IntOp.cmpi .eq (iota .tc S1x2048 32 [1] iota_S1x2048_d1_w32 (ix2 (0 : Fin 1) s)) w)
      (IntOp.cmpi .ne (shapeCast S1x2048 v shapeCasts_S1x1x2048_S1x2048 (ix2 (0 : Fin 1) s)) 0#32) = _
  rw [iota_single_apply, shapeCast_1ab_ab_apply v shapeCasts_S1x1x2048_S1x2048 (0 : Fin 1) s, hm s]
  exact hit_word _ w (mb s)

/-- Slot 0's hit row at lane s. -/
theorem hit0 (w : BitVec 32) (v13 : Vec Ideal S1x1x2048 .i32) (mb : Fin 2048 → BitVec 1)
    (hm : ∀ s : Fin 2048, v13 (ix3 (0 : Fin 1) (0 : Fin 1) s) = (mb s).setWidth 32) (s : Fin 2048) :
    k0_pay7 (F := Ideal) w v13 (ix2 (0 : Fin 1) s) = hitBit w (mb s) s :=
  hitRow w v13 mb hm s

/-- Slot 1's hit row at lane s. -/
theorem hit1 (w : BitVec 32) (v56 : Vec Ideal S1x1x2048 .i32) (mb : Fin 2048 → BitVec 1)
    (hm : ∀ s : Fin 2048, v56 (ix3 (0 : Fin 1) (0 : Fin 1) s) = (mb s).setWidth 32) (s : Fin 2048) :
    k0_pay13 (F := Ideal) w v56 (ix2 (0 : Fin 1) s) = hitBit w (mb s) s :=
  hitRow w v56 mb hm s

/-- The stored mask row, for either slot: the zero-extension of the row, with the unit axis added. -/
private theorem maskRow (h : IVec S1x2048 1) (s : Fin 2048) :
    shapeCast S1x1x2048 (extui 32 h natLt_1_32) shapeCasts_S1x2048_S1x1x2048 (ix3 (0 : Fin 1) (0 : Fin 1) s)
      = (h (ix2 (0 : Fin 1) s)).setWidth 32 := by
  rw [shapeCast_ab_1ab_apply (extui 32 h natLt_1_32) shapeCasts_S1x2048_S1x1x2048 (0 : Fin 1) (0 : Fin 1) s, extui_apply]

/-- Slot 0's stored mask row at lane s: the hit bit as a 32-bit word. -/
theorem mask0 (w : BitVec 32) (v13 : Vec Ideal S1x1x2048 .i32) (mb : Fin 2048 → BitVec 1)
    (hm : ∀ s : Fin 2048, v13 (ix3 (0 : Fin 1) (0 : Fin 1) s) = (mb s).setWidth 32) (s : Fin 2048) :
    k0_pay10 (k0_pay7 (F := Ideal) w v13) (ix3 (0 : Fin 1) (0 : Fin 1) s) = (hitBit w (mb s) s).setWidth 32 :=
  (maskRow _ s).trans (congrArg (BitVec.setWidth 32) (hit0 w v13 mb hm s))

/-- Slot 1's stored mask row at lane s. -/
theorem mask1 (w : BitVec 32) (v56 : Vec Ideal S1x1x2048 .i32) (mb : Fin 2048 → BitVec 1)
    (hm : ∀ s : Fin 2048, v56 (ix3 (0 : Fin 1) (0 : Fin 1) s) = (mb s).setWidth 32) (s : Fin 2048) :
    k0_pay2 (k0_pay13 (F := Ideal) w v56) (ix3 (0 : Fin 1) (0 : Fin 1) s) = (hitBit w (mb s) s).setWidth 32 :=
  (maskRow _ s).trans (congrArg (BitVec.setWidth 32) (hit1 w v56 mb hm s))

/-! ## The convolution payload -/

private theorem lhs_conv_0 (j : S512x2048.Idx) (q : dot_S512x512_S2048x512_S512x2048_1_1_0_0_n_n.contr.Idx) :
    (dot_S512x512_S2048x512_S512x2048_1_1_0_0_n_n.lhsIdx j q 0).val = (j 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
private theorem lhs_conv_1 (j : S512x2048.Idx) (q : dot_S512x512_S2048x512_S512x2048_1_1_0_0_n_n.contr.Idx) :
    (dot_S512x512_S2048x512_S512x2048_1_1_0_0_n_n.lhsIdx j q 1).val = (q ⟨0, by decide⟩).val :=
  dot_S512x512_S2048x512_S512x2048_1_1_0_0_n_n.lhsIdx_val_of_single rfl j q
private theorem rhs_conv_0 (j : S512x2048.Idx) (q : dot_S512x512_S2048x512_S512x2048_1_1_0_0_n_n.contr.Idx) :
    (dot_S512x512_S2048x512_S512x2048_1_1_0_0_n_n.rhsIdx j q 0).val = (j 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
private theorem rhs_conv_1 (j : S512x2048.Idx) (q : dot_S512x512_S2048x512_S512x2048_1_1_0_0_n_n.contr.Idx) :
    (dot_S512x512_S2048x512_S512x2048_1_1_0_0_n_n.rhsIdx j q 1).val = (q ⟨0, by decide⟩).val :=
  dot_S512x512_S2048x512_S512x2048_1_1_0_0_n_n.rhsIdx_val_of_single rfl j q

/-- The weight block times the transposed source block into the zero accumulator, at (o, s): Σ_d A[o,d] · B[s,d]. -/
private theorem matmul_conv_apply (A : FVec Ideal S512x512 .bf16) (B : FVec Ideal S2048x512 .bf16) (o : Fin 512) (s : Fin 2048) :
    matmul dot_S512x512_S2048x512_S512x2048_1_1_0_0_n_n none A B (constant (F := Ideal) S512x2048 .f32 0x00000000#32) (ix2 o s)
      = ∑ d : Fin 512, A (ix2 o d) * B (ix2 s d) := by
  simp only [matmul]
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 o s) ((contrEquiv1 dot_S512x512_S2048x512_S512x2048_1_1_0_0_n_n 512 rfl rfl).symm k) = ix2 o k := funext fun a => Fin.ext (by
    match a with
    | ⟨0, _⟩ => exact lhs_conv_0 _ _
    | ⟨1, _⟩ => exact (lhs_conv_1 _ _).trans hk)
  have er : dot_S512x512_S2048x512_S512x2048_1_1_0_0_n_n.rhsIdx (ix2 o s) ((contrEquiv1 dot_S512x512_S2048x512_S512x2048_1_1_0_0_n_n 512 rfl rfl).symm k) = ix2 s k := funext fun a => Fin.ext (by
    match a with
    | ⟨0, _⟩ => exact rhs_conv_0 _ _
    | ⟨1, _⟩ => exact (rhs_conv_1 _ _).trans hk)
  rw [el, er]

/-- The bias column [512,1] broadcast along the positions reads, at (o, s), the column at o. -/
private theorem broadcastTo_a1_ab_apply {α : Type} (v : S512x1.Idx → α) (o : Fin 512) (s : Fin 2048) :
    broadcastTo S512x2048 v broadcasts_S512x1_S512x2048 (ix2 o s) = v (ix2 o (0 : Fin 1)) := by
  refine broadcastTo_apply v broadcasts_S512x1_S512x2048 (ix2 o s) (ix2 o (0 : Fin 1)) fun ax => ?_
  match ax with
  | ⟨0, _⟩ => rfl
  | ⟨1, _⟩ => rfl

/-- The convolution payload, for either slot, over the cast operands: Σ_d A[o,d] · B[s,d] + c[o,0]. -/
private theorem convRow (A : FVec Ideal S512x512 .bf16) (c : FVec Ideal S512x1 .f32) (B : FVec Ideal S2048x512 .f32)
    (o : Fin 512) (s : Fin 2048) :
    shapeCast S1x512x2048
        (addf (matmul dot_S512x512_S2048x512_S512x2048_1_1_0_0_n_n none A (truncf .bf16 B bitsLt_bf16_f32)
            (constant (F := Ideal) S512x2048 .f32 0x00000000#32))
          (broadcastTo S512x2048 c broadcasts_S512x1_S512x2048))
        shapeCasts_S512x2048_S1x512x2048 (ix3 (0 : Fin 1) o s)
      = (∑ d : Fin 512, A (ix2 o d) * B (ix2 s d)) + c (ix2 o (0 : Fin 1)) := by
  refine (shapeCast_ab_1ab_apply _ shapeCasts_S512x2048_S1x512x2048 (0 : Fin 1) o s).trans ?_
  rw [addf_apply, matmul_conv_apply, broadcastTo_a1_ab_apply]
  rfl

/-- Slot 0's convolution payload at (o, s). -/
theorem conv0 (v1 : Vec Ideal S512x512 .bf16) (v3 : Vec Ideal S512x1 .f32) (v9 : Vec Ideal S1x2048x512 .f32)
    (o : Fin 512) (s : Fin 2048) :
    k0_pay11 (F := Ideal) (k0_pay4 (F := Ideal) v1) (k0_pay5 (F := Ideal) v3) (k0_pay6 (F := Ideal) v9) (ix3 (0 : Fin 1) o s)
      = convAt (fun o' d => v1 (ix2 o' d)) (fun s' d => v9 (ix3 (0 : Fin 1) s' d)) (fun o' => v3 (ix2 o' (0 : Fin 1))) o s := by
  refine (convRow _ _ _ o s).trans ?_
  unfold convAt k0_pay4 k0_pay5 k0_pay6
  rw [shapeCast_self, shapeCast_self]
  refine congrArg (· + v3 (ix2 o (0 : Fin 1))) (Finset.sum_congr rfl fun d _ => ?_)
  rw [shapeCast_1ab_ab_apply]

/-- Slot 1's convolution payload at (o, s). -/
theorem conv1 (v1 : Vec Ideal S512x512 .bf16) (v3 : Vec Ideal S512x1 .f32) (v52 : Vec Ideal S1x2048x512 .f32)
    (o : Fin 512) (s : Fin 2048) :
    k0_pay3 (F := Ideal) (k0_pay4 (F := Ideal) v1) (k0_pay5 (F := Ideal) v3) (k0_pay12 (F := Ideal) v52) (ix3 (0 : Fin 1) o s)
      = convAt (fun o' d => v1 (ix2 o' d)) (fun s' d => v52 (ix3 (0 : Fin 1) s' d)) (fun o' => v3 (ix2 o' (0 : Fin 1))) o s := by
  refine (convRow _ _ _ o s).trans ?_
  unfold convAt k0_pay4 k0_pay5 k0_pay12
  rw [shapeCast_self, shapeCast_self]
  refine congrArg (· + v3 (ix2 o (0 : Fin 1))) (Finset.sum_congr rfl fun d _ => ?_)
  rw [shapeCast_1ab_ab_apply]

end Cert.KernelRows

end
-- ==== Proof.KernelRows.lean ====
/-
  The kernel body's attention-weight payloads, read at an index, for either of the step's two batch slots:
  the target row times the transposed projection weights, that row times the transposed source block, the hit
  lanes replaced by the named -∞, then the row's softmax (maximum from -∞, sum from 0, exact quotient).
-/
import proofs.«402281_j61795989455034_3_alg».proof.Proof.KernelHit

noncomputable section

open scoped BigOperators

namespace Cert.KernelRows

open Idealize.ShloMosaic Idealize.ShloMosaic.ValueIdx Cert.KernelIdeal Cert.KernelIdeal.Gen Cert.AttnSpec

/-- The pattern of -∞. -/
private theorem ofBits_neg_inf : Ideal.ofBits .f32 0xFF800000#32 = ⊥ := by simp [Ideal.ofBits, Ideal.ieee]

/-- The index a lane reduction of a one-row block inserts is (0, k). -/
private theorem lift_eq (j : S1.Idx) (k : Fin 2048) :
    reduces_S1x2048_S1.lift j k = ix2 (0 : Fin 1) k :=
  funext fun a => Fin.ext (by
    match a with
    | ⟨0, _⟩ => exact Fin.val_eq_zero (j 0)
    | ⟨1, _⟩ => rfl)

/-- A one-entry vector, given a second unit axis and spread along the lanes, reads its entry everywhere. -/
private theorem keep_apply {α : Type} (r : S1.Idx → α) (s : Fin 2048) :
    broadcastTo S1x2048 (shapeCast S1x1 r shapeCasts_S1_S1x1) broadcasts_S1x1_S1x2048 (ix2 (0 : Fin 1) s)
      = r (ix1 (0 : Fin 1)) := by
  refine (broadcastTo_apply _ _ _ (ix2 (0 : Fin 1) (0 : Fin 1)) ?_).trans ?_
  · intro a
    match a with
    | ⟨0, _⟩ => rfl
    | ⟨1, _⟩ => rfl
  · exact shapeCast_a_1a_apply r _ 0 0

/-- The row's maximum from -∞. -/
private theorem rowmax_apply (v : FVec Ideal S1x2048 .f32) (j : S1.Idx) :
    multiReduction (F := Ideal) .maximumf [1] S1 v 0xFF800000#32 reduces_S1x2048_S1 (.inl rfl) rfl j
      = rowMax (fun s' => v (ix2 (0 : Fin 1) s')) := by
  refine (Ideal.multiReduction_maximumf_single v _ reduces_S1x2048_S1 _ _ j).trans ?_
  unfold rowMax
  have e : (v ∘ reduces_S1x2048_S1.lift j) = fun s' : Fin 2048 => v (ix2 (0 : Fin 1) s') :=
    funext fun k => congrArg v (lift_eq j k)
  rw [e]
  show Finset.fold max (Ideal.ofBits .f32 0xFF800000#32) _ _ = _
  rw [ofBits_neg_inf]
  rfl

/-- The row's sum from 0. -/
private theorem rowsum_apply (v : FVec Ideal S1x2048 .f32) (j : S1.Idx) :
    multiReduction (F := Ideal) .add [1] S1 v 0x00000000#32 reduces_S1x2048_S1 (.inl rfl) rfl j
      = ∑ s' : Fin 2048, v (ix2 (0 : Fin 1) s') := by
  refine (Ideal.multiReduction_add_single v _ reduces_S1x2048_S1 _ _ j).trans ?_
  exact Finset.sum_congr rfl fun k _ => congrArg v (lift_eq j k)

/-- The softmax chain of a one-row block: maximum from -∞, exponentials of the differences, their sum from 0, the quotient. -/
private def smax (v : FVec Ideal S1x2048 .f32) : FVec Ideal S1x2048 .f32 :=
  divf (exp (subf v (broadcastTo S1x2048 (shapeCast S1x1
      (multiReduction (F := Ideal) .maximumf [1] S1 v 0xFF800000#32 reduces_S1x2048_S1 (.inl rfl) rfl) shapeCasts_S1_S1x1) broadcasts_S1x1_S1x2048)))
    (broadcastTo S1x2048 (shapeCast S1x1
      (multiReduction (F := Ideal) .add [1] S1
        (exp (subf v (broadcastTo S1x2048 (shapeCast S1x1
          (multiReduction (F := Ideal) .maximumf [1] S1 v 0xFF800000#32 reduces_S1x2048_S1 (.inl rfl) rfl) shapeCasts_S1_S1x1) broadcasts_S1x1_S1x2048)))
        0x00000000#32 reduces_S1x2048_S1 (.inl rfl) rfl) shapeCasts_S1_S1x1) broadcasts_S1x1_S1x2048)

/-- The exponentials of the differences, at a lane. -/
private theorem expdiff_apply (v : FVec Ideal S1x2048 .f32) (s : Fin 2048) :
    exp (subf v (broadcastTo S1x2048 (shapeCast S1x1
      (multiReduction (F := Ideal) .maximumf [1] S1 v 0xFF800000#32 reduces_S1x2048_S1 (.inl rfl) rfl) shapeCasts_S1_S1x1) broadcasts_S1x1_S1x2048))
      (ix2 (0 : Fin 1) s)
      = Ideal.exp (v (ix2 (0 : Fin 1) s) - rowMax (fun s' => v (ix2 (0 : Fin 1) s'))) := by
  show Ideal.exp (v (ix2 (0 : Fin 1) s) - broadcastTo S1x2048 (shapeCast S1x1 _ shapeCasts_S1_S1x1) broadcasts_S1x1_S1x2048 (ix2 (0 : Fin 1) s)) = _
  rw [keep_apply, rowmax_apply]

/-- The chain at a lane is the row's softmax there. -/
private theorem smax_apply (v : FVec Ideal S1x2048 .f32) (s : Fin 2048) :
    smax v (ix2 (0 : Fin 1) s) = rowSoftmax (fun s' => v (ix2 (0 : Fin 1) s')) s := by
  unfold smax rowSoftmax
  refine (divf_apply _ _ _).trans ?_
  rw [keep_apply, rowsum_apply, expdiff_apply]
  exact congrArg (Ideal.div _) (Finset.sum_congr rfl fun k _ => expdiff_apply v k)

/-- Slot 1's stored row is the softmax chain of its select row, with a unit axis put in front. -/
private theorem pay1_eq (v : FVec Ideal S1x2048 .f32) : k0_pay1 (F := Ideal) v = k0_pay9 (F := Ideal) (smax v) := rfl

/-! The two products: the four axis facts of each dot record, then the product at an index. -/

private theorem lhs_proj_0 (i : S1x512.Idx) (q : dot_S1x512_S512x512_S1x512_1_1_0_0_n_n.contr.Idx) :
    (dot_S1x512_S512x512_S1x512_1_1_0_0_n_n.lhsIdx i q 0).val = (i 0).val := by
  unfold DotDims.lhsIdx
  rw [dif_neg (show ¬(0 : Fin S1x512.rank) ∈ dot_S1x512_S512x512_S1x512_1_1_0_0_n_n.lhsBatch by decide), dif_pos (show (0 : Fin S1x512.rank) ∈ dot_S1x512_S512x512_S1x512_1_1_0_0_n_n.lhsNonContracting by decide)]
  rfl
private theorem lhs_proj_1 (i : S1x512.Idx) (q : dot_S1x512_S512x512_S1x512_1_1_0_0_n_n.contr.Idx) :
    (dot_S1x512_S512x512_S1x512_1_1_0_0_n_n.lhsIdx i q 1).val = (q ⟨0, by decide⟩).val :=
  dot_S1x512_S512x512_S1x512_1_1_0_0_n_n.lhsIdx_val_of_single rfl i q
private theorem rhs_proj_0 (i : S1x512.Idx) (q : dot_S1x512_S512x512_S1x512_1_1_0_0_n_n.contr.Idx) :
    (dot_S1x512_S512x512_S1x512_1_1_0_0_n_n.rhsIdx i q 0).val = (i 1).val := by
  unfold DotDims.rhsIdx
  rw [dif_neg (show ¬(0 : Fin S512x512.rank) ∈ dot_S1x512_S512x512_S1x512_1_1_0_0_n_n.rhsBatch by decide), dif_pos (show (0 : Fin S512x512.rank) ∈ dot_S1x512_S512x512_S1x512_1_1_0_0_n_n.rhsNonContracting by decide)]
  rfl
private theorem rhs_proj_1 (i : S1x512.Idx) (q : dot_S1x512_S512x512_S1x512_1_1_0_0_n_n.contr.Idx) :
    (dot_S1x512_S512x512_S1x512_1_1_0_0_n_n.rhsIdx i q 1).val = (q ⟨0, by decide⟩).val :=
  dot_S1x512_S512x512_S1x512_1_1_0_0_n_n.rhsIdx_val_of_single rfl i q

/-- The target row times the transposed weights, into 0: Σ_d t[0,d] · W[e,d]. -/
private theorem proj_apply (t : FVec Ideal S1x512 .f32) (wl : FVec Ideal S512x512 .f32) (e : Fin 512) :
    matmul dot_S1x512_S512x512_S1x512_1_1_0_0_n_n (some .fp32) t wl (constant (F := Ideal) S1x512 .f32 0x00000000#32) (ix2 (0 : Fin 1) e)
      = ∑ d : Fin 512, t (ix2 (0 : Fin 1) d) * wl (ix2 e d) := by
  refine (Ideal.matmul_constant_zero_apply dot_S1x512_S512x512_S1x512_1_1_0_0_n_n (some .fp32) t wl (ix2 (0 : Fin 1) e)).trans ?_
  rw [← Equiv.sum_comp (ValueIdx.contrEquiv1 dot_S1x512_S512x512_S1x512_1_1_0_0_n_n 512 rfl rfl).symm]
  refine Finset.sum_congr rfl fun k _ => ?_
  have hk := ValueIdx.contrEquiv1_symm_val dot_S1x512_S512x512_S1x512_1_1_0_0_n_n 512 rfl rfl k
  have el : dot_S1x512_S512x512_S1x512_1_1_0_0_n_n.lhsIdx (ix2 (0 : Fin 1) e) ((ValueIdx.contrEquiv1 dot_S1x512_S512x512_S1x512_1_1_0_0_n_n 512 rfl rfl).symm k) = ix2 (0 : Fin 1) k := funext fun a => Fin.ext (by
    match a with
    | ⟨0, _⟩ => exact lhs_proj_0 _ _
    | ⟨1, _⟩ => exact (lhs_proj_1 _ _).trans hk)
  have er : dot_S1x512_S512x512_S1x512_1_1_0_0_n_n.rhsIdx (ix2 (0 : Fin 1) e) ((ValueIdx.contrEquiv1 dot_S1x512_S512x512_S1x512_1_1_0_0_n_n 512 rfl rfl).symm k) = ix2 e k := funext fun a => Fin.ext (by
    match a with
    | ⟨0, _⟩ => exact rhs_proj_0 _ _
    | ⟨1, _⟩ => exact (rhs_proj_1 _ _).trans hk)
  rw [el, er]

private theorem lhs_score_0 (i : S1x2048.Idx) (q : dot_S1x512_S2048x512_S1x2048_1_1_0_0_n_n.contr.Idx) :
    (dot_S1x512_S2048x512_S1x2048_1_1_0_0_n_n.lhsIdx i q 0).val = (i 0).val := by
  unfold DotDims.lhsIdx
  rw [dif_neg (show ¬(0 : Fin S1x512.rank) ∈ dot_S1x512_S2048x512_S1x2048_1_1_0_0_n_n.lhsBatch by decide), dif_pos (show (0 : Fin S1x512.rank) ∈ dot_S1x512_S2048x512_S1x2048_1_1_0_0_n_n.lhsNonContracting by decide)]
  rfl
private theorem lhs_score_1 (i : S1x2048.Idx) (q : dot_S1x512_S2048x512_S1x2048_1_1_0_0_n_n.contr.Idx) :
    (dot_S1x512_S2048x512_S1x2048_1_1_0_0_n_n.lhsIdx i q 1).val = (q ⟨0, by decide⟩).val :=
  dot_S1x512_S2048x512_S1x2048_1_1_0_0_n_n.lhsIdx_val_of_single rfl i q
private theorem rhs_score_0 (i : S1x2048.Idx) (q : dot_S1x512_S2048x512_S1x2048_1_1_0_0_n_n.contr.Idx) :
    (dot_S1x512_S2048x512_S1x2048_1_1_0_0_n_n.rhsIdx i q 0).val = (i 1).val := by
  unfold DotDims.rhsIdx
  rw [dif_neg (show ¬(0 : Fin S2048x512.rank) ∈ dot_S1x512_S2048x512_S1x2048_1_1_0_0_n_n.rhsBatch by decide), dif_pos (show (0 : Fin S2048x512.rank) ∈ dot_S1x512_S2048x512_S1x2048_1_1_0_0_n_n.rhsNonContracting by decide)]
  rfl
private theorem rhs_score_1 (i : S1x2048.Idx) (q : dot_S1x512_S2048x512_S1x2048_1_1_0_0_n_n.contr.Idx) :
    (dot_S1x512_S2048x512_S1x2048_1_1_0_0_n_n.rhsIdx i q 1).val = (q ⟨0, by decide⟩).val :=
  dot_S1x512_S2048x512_S1x2048_1_1_0_0_n_n.rhsIdx_val_of_single rfl i q

/-- The projected row times the transposed source block, into 0: Σ_d p[0,d] · S[s,d]. -/
private theorem score_apply (p : FVec Ideal S1x512 .f32) (sm : FVec Ideal S2048x512 .f32) (s : Fin 2048) :
    matmul dot_S1x512_S2048x512_S1x2048_1_1_0_0_n_n (some .fp32) p sm (constant (F := Ideal) S1x2048 .f32 0x00000000#32) (ix2 (0 : Fin 1) s)
      = ∑ d : Fin 512, p (ix2 (0 : Fin 1) d) * sm (ix2 s d) := by
  refine (Ideal.matmul_constant_zero_apply dot_S1x512_S2048x512_S1x2048_1_1_0_0_n_n (some .fp32) p sm (ix2 (0 : Fin 1) s)).trans ?_
  rw [← Equiv.sum_comp (ValueIdx.contrEquiv1 dot_S1x512_S2048x512_S1x2048_1_1_0_0_n_n 512 rfl rfl).symm]
  refine Finset.sum_congr rfl fun k _ => ?_
  have hk := ValueIdx.contrEquiv1_symm_val dot_S1x512_S2048x512_S1x2048_1_1_0_0_n_n 512 rfl rfl k
  have el : dot_S1x512_S2048x512_S1x2048_1_1_0_0_n_n.lhsIdx (ix2 (0 : Fin 1) s) ((ValueIdx.contrEquiv1 dot_S1x512_S2048x512_S1x2048_1_1_0_0_n_n 512 rfl rfl).symm k) = ix2 (0 : Fin 1) k := funext fun a => Fin.ext (by
    match a with
    | ⟨0, _⟩ => exact lhs_score_0 _ _
    | ⟨1, _⟩ => exact (lhs_score_1 _ _).trans hk)
  have er : dot_S1x512_S2048x512_S1x2048_1_1_0_0_n_n.rhsIdx (ix2 (0 : Fin 1) s) ((ValueIdx.contrEquiv1 dot_S1x512_S2048x512_S1x2048_1_1_0_0_n_n 512 rfl rfl).symm k) = ix2 s k := funext fun a => Fin.ext (by
    match a with
    | ⟨0, _⟩ => exact rhs_score_0 _ _
    | ⟨1, _⟩ => exact (rhs_score_1 _ _).trans hk)
  rw [el, er]

/-- The named constant of the hit lanes is -∞. -/
private theorem neg_big : Named.named (F := Ideal) κ "neg_big" (φ := .f32) 0xFF333332#32 = ⊥ :=
  IdealRules.named_const.ideal_named_scalar _ _ _ _ rfl

/-- The masked score row: the scores of the projected target row against the source block, the hit lanes replaced by the named -∞. -/
private def mrow (hit : IVec S1x2048 1) (v0 : FVec Ideal S512x512 .f32) (v9 : FVec Ideal S1x2048x512 .f32)
    (v11 : FVec Ideal S1x1x512 .f32) : FVec Ideal S1x2048 .f32 :=
  select hit (broadcast S1x2048 (Named.named (F := Ideal) κ "neg_big" (φ := .f32) 0xFF333332#32))
    (matmul dot_S1x512_S2048x512_S1x2048_1_1_0_0_n_n (some .fp32)
      (matmul dot_S1x512_S512x512_S1x512_1_1_0_0_n_n (some .fp32) (shapeCast S1x512 v11 shapeCasts_S1x1x512_S1x512) v0
        (constant (F := Ideal) S1x512 .f32 0x00000000#32))
      (shapeCast S2048x512 v9 shapeCasts_S1x2048x512_S2048x512) (constant (F := Ideal) S1x2048 .f32 0x00000000#32))

/-- The masked score row at a lane. -/
private theorem mrow_apply (hit : IVec S1x2048 1) (v0 : FVec Ideal S512x512 .f32) (v9 : FVec Ideal S1x2048x512 .f32)
    (v11 : FVec Ideal S1x1x512 .f32) (s : Fin 2048) :
    mrow hit v0 v9 v11 (ix2 (0 : Fin 1) s)
      = rowMasked (fun s' => hit (ix2 (0 : Fin 1) s'))
          (rowScore (fun d => v11 (ix3 (0 : Fin 1) (0 : Fin 1) d)) (fun e d => v0 (ix2 e d))
            (fun s' d => v9 (ix3 (0 : Fin 1) s' d))) s := by
  unfold mrow rowMasked
  refine (select_apply _ _ _ _).trans ?_
  show (if hit (ix2 (0 : Fin 1) s) = 1#1 then _ else _) = _
  rw [broadcast_apply, neg_big, score_apply]
  unfold rowScore rowProj
  refine congrArg (fun x => if hit (ix2 (0 : Fin 1) s) = 1#1 then (⊥ : EReal) else x) ?_
  refine Finset.sum_congr rfl fun d _ => ?_
  rw [proj_apply, shapeCast_1ab_ab_apply]
  refine congrArg (· * _) (Finset.sum_congr rfl fun d' _ => ?_)
  rw [shapeCast_1ab_ab_apply]

/-- Slot 1's select row is the masked score row of its hit row. -/
private theorem pay14_eq (v0 : Vec Ideal S512x512 .f32) (w : BitVec 32) (v52 : Vec Ideal S1x2048x512 .f32) (v54 : Vec Ideal S1x1x512 .f32)
    (v56 : Vec Ideal S1x1x2048 .i32) :
    k0_pay14 (F := Ideal) v0 w v52 v54 v56 = mrow (k0_pay13 (F := Ideal) w v56) v0 v52 v54 := rfl

/-- Slot 0's quotient row is the softmax chain of the masked score row of its hit row. -/
private theorem pay8_eq (v0 : Vec Ideal S512x512 .f32) (w : BitVec 32) (v9 : Vec Ideal S1x2048x512 .f32) (v11 : Vec Ideal S1x1x512 .f32)
    (v13 : Vec Ideal S1x1x2048 .i32) :
    k0_pay8 (F := Ideal) v0 w v9 v11 v13 = smax (mrow (k0_pay7 (F := Ideal) w v13) v0 v9 v11) := rfl

/-- Slot 0's stored attention-weight row at lane s. -/
theorem logits0 (v0 : Vec Ideal S512x512 .f32) (w : BitVec 32) (v9 : Vec Ideal S1x2048x512 .f32) (v11 : Vec Ideal S1x1x512 .f32)
    (v13 : Vec Ideal S1x1x2048 .i32) (mb : Fin 2048 → BitVec 1)
    (hm : ∀ s : Fin 2048, v13 (ix3 (0 : Fin 1) (0 : Fin 1) s) = (mb s).setWidth 32) (s : Fin 2048) :
    k0_pay9 (F := Ideal) (k0_pay8 (F := Ideal) v0 w v9 v11 v13) (ix3 (0 : Fin 1) (0 : Fin 1) s)
      = rowLogit (fun d => v11 (ix3 (0 : Fin 1) (0 : Fin 1) d)) (fun e d => v0 (ix2 e d))
          (fun s' d => v9 (ix3 (0 : Fin 1) s' d)) (fun s' => hitBit w (mb s') s') s := by
  rw [pay8_eq]
  unfold k0_pay9
  refine (shapeCast_ab_1ab_apply _ _ 0 0 s).trans ?_
  rw [smax_apply]
  unfold rowLogit
  refine congrArg (fun a => rowSoftmax a s) (funext fun s' => ?_)
  refine (mrow_apply _ _ _ _ s').trans ?_
  unfold rowMasked
  beta_reduce
  rw [hit0 w v13 mb hm s']

/-- Slot 1's stored attention-weight row at lane s. -/
theorem logits1 (v0 : Vec Ideal S512x512 .f32) (w : BitVec 32) (v52 : Vec Ideal S1x2048x512 .f32) (v54 : Vec Ideal S1x1x512 .f32)
    (v56 : Vec Ideal S1x1x2048 .i32) (mb : Fin 2048 → BitVec 1)
    (hm : ∀ s : Fin 2048, v56 (ix3 (0 : Fin 1) (0 : Fin 1) s) = (mb s).setWidth 32) (s : Fin 2048) :
    k0_pay1 (F := Ideal) (k0_pay14 (F := Ideal) v0 w v52 v54 v56) (ix3 (0 : Fin 1) (0 : Fin 1) s)
      = rowLogit (fun d => v54 (ix3 (0 : Fin 1) (0 : Fin 1) d)) (fun e d => v0 (ix2 e d))
          (fun s' d => v52 (ix3 (0 : Fin 1) s' d)) (fun s' => hitBit w (mb s') s') s := by
  rw [pay1_eq, pay14_eq]
  unfold k0_pay9
  refine (shapeCast_ab_1ab_apply _ _ 0 0 s).trans ?_
  rw [smax_apply]
  unfold rowLogit
  refine congrArg (fun a => rowSoftmax a s) (funext fun s' => ?_)
  refine (mrow_apply _ _ _ _ s').trans ?_
  unfold rowMasked
  beta_reduce
  rw [hit1 w v56 mb hm s']

end Cert.KernelRows

end
-- ==== Proof.KernelPieces.lean ====
/-
  What one grid point's body leaves in the three output staging buffers, read at a block index.

  Each output block has two rows, one per batch slot; the body stores slot 0's row and slot 1's row, and the two
  stores tile the block.  Row r of the attention-weight block is slot r's softmax row, of the mask block slot r's hit
  row as 32-bit words, of the convolution block slot r's convolved source.  Slot r reads row r of the source, target
  and mask blocks, the whole weight blocks, and entry 2·i + r of the table of previous indices.
-/
import proofs.«402281_j61795989455034_3_alg».proof.Proof.Gen.KernelIdeal.Frame
import proofs.«402281_j61795989455034_3_alg».proof.Proof.LibTwoRows
import proofs.«402281_j61795989455034_3_alg».proof.Proof.KernelRows
import Idealize.ShloMosaic.Lib.Pipeline.Value

set_option maxRecDepth 16384

noncomputable section

namespace Cert.KernelFrame

open Idealize.ShloMosaic Idealize.ShloMosaic.TcCoe Idealize.ShloMosaic.Tactic Idealize.ShloMosaic.ValueIdx Idealize.ShloMosaic.TwoRows
open Idealize.SL Idealize.SL.Sem
open Cert.KernelIdeal Cert.KernelIdeal.Gen Cert.AttnSpec Cert.KernelRows

/-! ## Loads of known contents -/

section Loads

variable {F : FTy → Type} {sp : Space} {e : EltTy}

/-- A load of a whole buffer through the rectangle of its own sizes at zero offsets reads the contents. -/
theorem load_whole {S : Shape} (M : Memref sig .tc sp S e) (hM : M.IsWhole) (X : S.Idx → Elt F e)
    {off : Fin S.rank → Nat} (hz : off = fun _ => 0) (inb : ∀ a, off a + S.size a ≤ S.size a) :
    View.readAt (Elt F) M.view (Rect.unit off S.size inb).toLoadRect (hM.unread X) = X := by
  rw [View.readAt_eq_ld, hM.read_unread, View.ld_unit_zero hz]

variable {A B : Nat}

/-- A load of row 0 of a two-row buffer, at (0, a, b), reads the contents at (0, a, b). -/
theorem load_row0 (M : Memref sig .tc sp (⟨3, ![2, A, B]⟩ : Shape) e) (hM : M.IsWhole)
    (X : (⟨3, ![2, A, B]⟩ : Shape).Idx → Elt F e)
    (inb0 : ∀ a, (![0, 0, 0] : Fin 3 → Nat) a + (![1, A, B] : Fin 3 → Nat) a ≤ (⟨3, ![2, A, B]⟩ : Shape).size a)
    (a : Fin A) (b : Fin B) :
    View.readAt (Elt F) M.view (Rect.unit (s := (⟨3, ![2, A, B]⟩ : Shape)) ![0, 0, 0] ![1, A, B] inb0).toLoadRect (hM.unread X) (ix3 (0 : Fin 1) a b)
      = X (ix3 (0 : Fin 2) a b) := by
  rw [View.readAt_apply, hM.read_unread]
  exact congrArg X (idx_row0 inb0 a b)

/-- A load of row 1 of a two-row buffer, at (0, a, b), reads the contents at (1, a, b). -/
theorem load_row1 (M : Memref sig .tc sp (⟨3, ![2, A, B]⟩ : Shape) e) (hM : M.IsWhole)
    (X : (⟨3, ![2, A, B]⟩ : Shape).Idx → Elt F e)
    (inb1 : ∀ a, (![1, 0, 0] : Fin 3 → Nat) a + (![1, A, B] : Fin 3 → Nat) a ≤ (⟨3, ![2, A, B]⟩ : Shape).size a)
    (a : Fin A) (b : Fin B) :
    View.readAt (Elt F) M.view (Rect.unit (s := (⟨3, ![2, A, B]⟩ : Shape)) ![1, 0, 0] ![1, A, B] inb1).toLoadRect (hM.unread X) (ix3 (0 : Fin 1) a b)
      = X (ix3 (1 : Fin 2) a b) := by
  rw [View.readAt_apply, hM.read_unread]
  exact congrArg X (idx_row1 inb1 a b)

end Loads

theorem hz2 : (![0, 0] : Fin 2 → Nat) = fun _ => 0 := funext fun a => by fin_cases a <;> rfl

/-- The word of the table of previous indices the body loads for slot r at grid point i (its entry 2·i + r). -/
def tblWord {F : FTy → Type} [FloatOps F] (c : Dev nD) (i : grid0.Coords) (r : Fin 2) (xt0 : TbBuf0 (F := F) c tbM0_0) : Elt F .i32 :=
  View.readAt (Elt F) tbM0_0.view
    (Rect.unit (s := S64) (k0_off1 i (BitVec.ofNat 32 r.val)) S1.size (Facts₀.k0_off1_inb i r)).toLoadRect xt0
    (Shape.Idx.first (Facts₀.numel1_S1.symm ▸ Nat.one_pos))

/-! ## The three output blocks -/

set_option maxHeartbeats 1000000 in
/-- The attention-weight block at (r, 0, s): slot r's softmax row at s. -/
theorem out7_apply (c : Dev nD) (i : grid0.Coords) (arg2 : Memref sig .tc .vmem S2x2048x512 .f32) (harg2 : arg2.IsWhole) (arg3 : Memref sig .tc .vmem S2x1x512 .f32) (harg3 : arg3.IsWhole) (arg4 : Memref sig .tc .vmem S2x1x2048 .i32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S2x512x2048 .f32) (harg8 : arg8.IsWhole) (arg9 : Memref sig .tc .vmem S2x1x2048 .f32) (harg9 : arg9.IsWhole) (arg10 : Memref sig .tc .vmem S2x1x2048 .i32) (harg10 : arg10.IsWhole)
    (x0 : Vec Ideal S2x2048x512 .f32) (x1 : Vec Ideal S2x1x512 .f32) (x2 : Vec Ideal S2x1x2048 .i32) (x3 : Vec Ideal S512x512 .f32) (x4 : Vec Ideal S512x512 .bf16) (x5 : Vec Ideal S512x1 .f32) (xt0 : TbBuf0 (F := Ideal) c tbM0_0)
    (mb0 mb1 : Fin 2048 → BitVec 1)
    (hm0 : ∀ s : Fin 2048, x2 (ix3 (0 : Fin 2) (0 : Fin 1) s) = (mb0 s).setWidth 32)
    (hm1 : ∀ s : Fin 2048, x2 (ix3 (1 : Fin 2) (0 : Fin 1) s) = (mb1 s).setWidth 32) (y : S2x1x2048.Idx) :
    out0_A_7 (F := Ideal) c i arg2 harg2 arg3 harg3 arg4 harg4 arg5 harg5 arg6 harg6 arg7 harg7 arg8 harg8 arg9 harg9 arg10 harg10 x0 x1 x2 x3 x4 x5 xt0 y
      = if (y 0).val = 0 then
          rowLogit (fun d => x1 (ix3 (0 : Fin 2) (0 : Fin 1) d)) (fun e d => x3 (ix2 e d)) (fun s d => x0 (ix3 (0 : Fin 2) s d))
            (fun s => hitBit (tblWord c i 0 xt0) (mb0 s) s) (y 2)
        else
          rowLogit (fun d => x1 (ix3 (1 : Fin 2) (0 : Fin 1) d)) (fun e d => x3 (ix2 e d)) (fun s d => x0 (ix3 (1 : Fin 2) s d))
            (fun s => hitBit (tblWord c i 1 xt0) (mb1 s) s) (y 2) := by
  unfold out0_A_7
  unfold kernelRun0_A
  dsimp only
  sl_unfold_run_names
  rw [read_writes_two_rows, rowIdx_mid_one]
  split
  · refine (logits0 _ _ _ _ _ mb0 (fun s => (load_row0 arg4 harg4 x2 _ (0 : Fin 1) s).trans (hm0 s)) (y 2)).trans ?_
    congr 1
    · funext d; exact load_row0 arg3 harg3 x1 _ (0 : Fin 1) d
    · funext e d; exact congrFun (load_whole arg5 harg5 x3 hz2 _) (ix2 e d)
    · funext s d; exact load_row0 arg2 harg2 x0 _ s d
  · refine (logits1 _ _ _ _ _ mb1 (fun s => (load_row1 arg4 harg4 x2 _ (0 : Fin 1) s).trans (hm1 s)) (y 2)).trans ?_
    congr 1
    · funext d; exact load_row1 arg3 harg3 x1 _ (0 : Fin 1) d
    · funext e d; exact congrFun (load_whole arg5 harg5 x3 hz2 _) (ix2 e d)
    · funext s d; exact load_row1 arg2 harg2 x0 _ s d

set_option maxHeartbeats 1000000 in
/-- The mask block at (r, 0, s): slot r's hit bit at s, as a 32-bit word. -/
theorem out8_apply (c : Dev nD) (i : grid0.Coords) (arg2 : Memref sig .tc .vmem S2x2048x512 .f32) (harg2 : arg2.IsWhole) (arg3 : Memref sig .tc .vmem S2x1x512 .f32) (harg3 : arg3.IsWhole) (arg4 : Memref sig .tc .vmem S2x1x2048 .i32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S2x512x2048 .f32) (harg8 : arg8.IsWhole) (arg9 : Memref sig .tc .vmem S2x1x2048 .f32) (harg9 : arg9.IsWhole) (arg10 : Memref sig .tc .vmem S2x1x2048 .i32) (harg10 : arg10.IsWhole)
    (x0 : Vec Ideal S2x2048x512 .f32) (x1 : Vec Ideal S2x1x512 .f32) (x2 : Vec Ideal S2x1x2048 .i32) (x3 : Vec Ideal S512x512 .f32) (x4 : Vec Ideal S512x512 .bf16) (x5 : Vec Ideal S512x1 .f32) (xt0 : TbBuf0 (F := Ideal) c tbM0_0)
    (mb0 mb1 : Fin 2048 → BitVec 1)
    (hm0 : ∀ s : Fin 2048, x2 (ix3 (0 : Fin 2) (0 : Fin 1) s) = (mb0 s).setWidth 32)
    (hm1 : ∀ s : Fin 2048, x2 (ix3 (1 : Fin 2) (0 : Fin 1) s) = (mb1 s).setWidth 32) (y : S2x1x2048.Idx) :
    out0_A_8 (F := Ideal) c i arg2 harg2 arg3 harg3 arg4 harg4 arg5 harg5 arg6 harg6 arg7 harg7 arg8 harg8 arg9 harg9 arg10 harg10 x0 x1 x2 x3 x4 x5 xt0 y
      = if (y 0).val = 0 then (hitBit (tblWord c i 0 xt0) (mb0 (y 2)) (y 2)).setWidth 32
        else (hitBit (tblWord c i 1 xt0) (mb1 (y 2)) (y 2)).setWidth 32 := by
  unfold out0_A_8
  unfold kernelRun0_A
  dsimp only
  sl_unfold_run_names
  rw [read_writes_two_rows, rowIdx_mid_one]
  split
  · exact mask0 _ _ mb0 (fun s => (load_row0 arg4 harg4 x2 _ (0 : Fin 1) s).trans (hm0 s)) (y 2)
  · exact mask1 _ _ mb1 (fun s => (load_row1 arg4 harg4 x2 _ (0 : Fin 1) s).trans (hm1 s)) (y 2)

set_option maxHeartbeats 1000000 in
/-- The convolution block at (r, o, s): slot r's convolved source at (o, s). -/
theorem out6_apply (c : Dev nD) (i : grid0.Coords) (arg2 : Memref sig .tc .vmem S2x2048x512 .f32) (harg2 : arg2.IsWhole) (arg3 : Memref sig .tc .vmem S2x1x512 .f32) (harg3 : arg3.IsWhole) (arg4 : Memref sig .tc .vmem S2x1x2048 .i32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S2x512x2048 .f32) (harg8 : arg8.IsWhole) (arg9 : Memref sig .tc .vmem S2x1x2048 .f32) (harg9 : arg9.IsWhole) (arg10 : Memref sig .tc .vmem S2x1x2048 .i32) (harg10 : arg10.IsWhole)
    (x0 : Vec Ideal S2x2048x512 .f32) (x1 : Vec Ideal S2x1x512 .f32) (x2 : Vec Ideal S2x1x2048 .i32) (x3 : Vec Ideal S512x512 .f32) (x4 : Vec Ideal S512x512 .bf16) (x5 : Vec Ideal S512x1 .f32) (xt0 : TbBuf0 (F := Ideal) c tbM0_0) (y : S2x512x2048.Idx) :
    out0_A_6 (F := Ideal) c i arg2 harg2 arg3 harg3 arg4 harg4 arg5 harg5 arg6 harg6 arg7 harg7 arg8 harg8 arg9 harg9 arg10 harg10 x0 x1 x2 x3 x4 x5 xt0 y
      = if (y 0).val = 0 then
          convAt (fun o d => x4 (ix2 o d)) (fun s d => x0 (ix3 (0 : Fin 2) s d)) (fun o => x5 (ix2 o (0 : Fin 1))) (y 1) (y 2)
        else
          convAt (fun o d => x4 (ix2 o d)) (fun s d => x0 (ix3 (1 : Fin 2) s d)) (fun o => x5 (ix2 o (0 : Fin 1))) (y 1) (y 2) := by
  unfold out0_A_6
  unfold kernelRun0_A
  dsimp only
  sl_unfold_run_names
  rw [read_writes_two_rows]
  split
  · refine (conv0 _ _ _ (y 1) (y 2)).trans ?_
    congr 1
    · funext o d; exact congrFun (load_whole arg6 harg6 x4 hz2 _) (ix2 o d)
    · funext s d; exact load_row0 arg2 harg2 x0 _ s d
    · funext o; exact congrFun (load_whole arg7 harg7 x5 hz2 _) (ix2 o (0 : Fin 1))
  · refine (conv1 _ _ _ (y 1) (y 2)).trans ?_
    congr 1
    · funext o d; exact congrFun (load_whole arg6 harg6 x4 hz2 _) (ix2 o d)
    · funext s d; exact load_row1 arg2 harg2 x0 _ s d
    · funext o; exact congrFun (load_whole arg7 harg7 x5 hz2 _) (ix2 o (0 : Fin 1))

end Cert.KernelFrame

end
-- ==== Proof.KernelBlocks.lean ====
/-
  Where one grid point's blocks sit in the arrays, and what the arrays hold when the region is entered.

  The grid has 32 points; point t handles batches 2t and 2t + 1.  The source, target, mask and the three output
  windows take block t along the batch axis (two rows: batches 2t, 2t + 1); the two weight windows and the bias window
  take their whole array at every point.  Before the region the host widens the mask bits to 32-bit words, changes the
  convolution weights' float format and gives the bias a unit column axis.
-/
import proofs.«402281_j61795989455034_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelFrame

open Idealize.ShloMosaic Idealize.ShloMosaic.TcCoe Idealize.ShloMosaic.ValueIdx
open Idealize.SL Idealize.SL.Sem
open Cert.KernelIdeal Cert.KernelIdeal.Gen Idealize.ShloMosaic.StableHlo

variable {F : FTy → Type} [FloatOps F] [Named F]

/-! ## The block indices, at any admissible contents of the table -/

/-- Windows 0, 1, 2, 6, 7, 8 take block t along the batch axis; windows 3, 4, 5 their whole array. -/
theorem win_index (a : (pcfg0 (F := F)).Adm) : ∀ t : Fin (cfg0 a).N,
    ((cfg0 a).win 0).index t = ![t.val, 0, 0] ∧ ((cfg0 a).win 1).index t = ![t.val, 0, 0]
    ∧ ((cfg0 a).win 2).index t = ![t.val, 0, 0] ∧ ((cfg0 a).win 3).index t = ![0, 0]
    ∧ ((cfg0 a).win 4).index t = ![0, 0] ∧ ((cfg0 a).win 5).index t = ![0, 0]
    ∧ ((cfg0 a).win 6).index t = ![t.val, 0, 0] ∧ ((cfg0 a).win 7).index t = ![t.val, 0, 0]
    ∧ ((cfg0 a).win 8).index t = ![t.val, 0, 0] :=
  (by decide +kernel : ∀ t : Fin grid0.N,
    cc0_transform_0 (grid0.coords t) = ![t.val, 0, 0] ∧ cc0_transform_1 (grid0.coords t) = ![t.val, 0, 0]
    ∧ cc0_transform_2 (grid0.coords t) = ![t.val, 0, 0] ∧ cc0_transform_3 (grid0.coords t) = ![0, 0]
    ∧ cc0_transform_4 (grid0.coords t) = ![0, 0] ∧ cc0_transform_5 (grid0.coords t) = ![0, 0]
    ∧ cc0_transform_6 (grid0.coords t) = ![t.val, 0, 0] ∧ cc0_transform_7 (grid0.coords t) = ![t.val, 0, 0]
    ∧ cc0_transform_8 (grid0.coords t) = ![t.val, 0, 0])

/-- The table entries the body reads at point t: 2t for slot 0 and 2t + 1 for slot 1. -/
theorem off_word : ∀ t : Fin grid0.N, k0_off1 (grid0.coords t) 0#32 = ![2 * t.val] ∧ k0_off1 (grid0.coords t) 1#32 = ![2 * t.val + 1] := by
  decide +kernel

variable (m : (ℓ : Loc nD τ sig) → Buf (Elt F) ℓ)

/-- Slot r of point t is a batch number. -/
theorem lt64 (hO : Ok m) (t : Fin (cfgM m hO).N) (r : Fin 2) : 2 * t.val + r.val < 64 := by
  have ht : t.val < grid0.N := t.isLt
  rw [N_0] at ht
  have hr := r.isLt
  omega

/-- The batch slot r of point t handles. -/
abbrev bat (hO : Ok m) (t : Fin (cfgM m hO).N) (r : Fin 2) : Fin 64 := ⟨2 * t.val + r.val, lt64 m hO t r⟩

/-! ## The input blocks read at coordinates -/

/-- Row r of the source block at point t is batch 2t + r of the source. -/
theorem iblk0_apply (hO : Ok m) (c : Dev nD) (t : Fin (cfgM m hO).N) (r : Fin 2) (s : Fin 2048) (d : Fin 512) :
    iblk m hO c 0 t (ix3 r s d) = V m c main_arg0 (ix3 (bat m hO t r) s d) := by
  obtain ⟨e0, e1, e2, e3, e4, e5, e6, e7, e8⟩ := win_index (adm m hO) t
  have h0 : ((cfgM m hO).win 0).index t (0 : Fin 3) = t.val := congrFun e0 (0 : Fin 3)
  have h1 : ((cfgM m hO).win 0).index t (1 : Fin 3) = 0 := congrFun e0 (1 : Fin 3)
  have h2 : ((cfgM m hO).win 0).index t (2 : Fin 3) = 0 := congrFun e0 (2 : Fin 3)
  show V m c main_arg0 ((((cfgM m hO).win 0).blk t).view.emb (ix3 r s d)) = _
  refine congrArg (V m c main_arg0) ?_
  funext a
  apply Fin.ext
  match a with
  | ⟨0, _⟩ => show ((cfgM m hO).win 0).index t (0 : Fin 3) * 2 + 1 * r.val = 2 * t.val + r.val; omega
  | ⟨1, _⟩ => show ((cfgM m hO).win 0).index t (1 : Fin 3) * 2048 + 1 * s.val = s.val; omega
  | ⟨2, _⟩ => show ((cfgM m hO).win 0).index t (2 : Fin 3) * 512 + 1 * d.val = d.val; omega

/-- Row r of the target block at point t is batch 2t + r of the target. -/
theorem iblk1_apply (hO : Ok m) (c : Dev nD) (t : Fin (cfgM m hO).N) (r : Fin 2) (z : Fin 1) (d : Fin 512) :
    iblk m hO c 1 t (ix3 r z d) = V m c main_arg1 (ix3 (bat m hO t r) z d) := by
  obtain ⟨e0, e1, e2, e3, e4, e5, e6, e7, e8⟩ := win_index (adm m hO) t
  have h0 : ((cfgM m hO).win 1).index t (0 : Fin 3) = t.val := congrFun e1 (0 : Fin 3)
  have h1 : ((cfgM m hO).win 1).index t (1 : Fin 3) = 0 := congrFun e1 (1 : Fin 3)
  have h2 : ((cfgM m hO).win 1).index t (2 : Fin 3) = 0 := congrFun e1 (2 : Fin 3)
  show V m c main_arg1 ((((cfgM m hO).win 1).blk t).view.emb (ix3 r z d)) = _
  refine congrArg (V m c main_arg1) ?_
  funext a
  apply Fin.ext
  match a with
  | ⟨0, _⟩ => show ((cfgM m hO).win 1).index t (0 : Fin 3) * 2 + 1 * r.val = 2 * t.val + r.val; omega
  | ⟨1, _⟩ => show ((cfgM m hO).win 1).index t (1 : Fin 3) * 1 + 1 * z.val = z.val; omega
  | ⟨2, _⟩ => show ((cfgM m hO).win 1).index t (2 : Fin 3) * 512 + 1 * d.val = d.val; omega

/-- Row r of the mask-word block at point t is batch 2t + r of the widened mask. -/
theorem iblk2_apply (hO : Ok m) (c : Dev nD) (t : Fin (cfgM m hO).N) (r : Fin 2) (z : Fin 1) (s : Fin 2048) :
    iblk m hO c 2 t (ix3 r z s) = V m c main_v0 (ix3 (bat m hO t r) z s) := by
  obtain ⟨e0, e1, e2, e3, e4, e5, e6, e7, e8⟩ := win_index (adm m hO) t
  have h0 : ((cfgM m hO).win 2).index t (0 : Fin 3) = t.val := congrFun e2 (0 : Fin 3)
  have h1 : ((cfgM m hO).win 2).index t (1 : Fin 3) = 0 := congrFun e2 (1 : Fin 3)
  have h2 : ((cfgM m hO).win 2).index t (2 : Fin 3) = 0 := congrFun e2 (2 : Fin 3)
  show V m c main_v0 ((((cfgM m hO).win 2).blk t).view.emb (ix3 r z s)) = _
  refine congrArg (V m c main_v0) ?_
  funext a
  apply Fin.ext
  match a with
  | ⟨0, _⟩ => show ((cfgM m hO).win 2).index t (0 : Fin 3) * 2 + 1 * r.val = 2 * t.val + r.val; omega
  | ⟨1, _⟩ => show ((cfgM m hO).win 2).index t (1 : Fin 3) * 1 + 1 * z.val = z.val; omega
  | ⟨2, _⟩ => show ((cfgM m hO).win 2).index t (2 : Fin 3) * 2048 + 1 * s.val = s.val; omega

/-- The projection-weight block at every point is the whole array. -/
theorem iblk3_apply (hO : Ok m) (c : Dev nD) (t : Fin (cfgM m hO).N) (p : Fin 512) (q : Fin 512) :
    iblk m hO c 3 t (ix2 p q) = V m c main_arg4 (ix2 p q) := by
  obtain ⟨e0, e1, e2, e3, e4, e5, e6, e7, e8⟩ := win_index (adm m hO) t
  have h0 : ((cfgM m hO).win 3).index t (0 : Fin 2) = 0 := congrFun e3 (0 : Fin 2)
  have h1 : ((cfgM m hO).win 3).index t (1 : Fin 2) = 0 := congrFun e3 (1 : Fin 2)
  show V m c main_arg4 ((((cfgM m hO).win 3).blk t).view.emb (ix2 p q)) = _
  refine congrArg (V m c main_arg4) ?_
  funext a
  apply Fin.ext
  match a with
  | ⟨0, _⟩ => show ((cfgM m hO).win 3).index t (0 : Fin 2) * 512 + 1 * p.val = p.val; omega
  | ⟨1, _⟩ => show ((cfgM m hO).win 3).index t (1 : Fin 2) * 512 + 1 * q.val = q.val; omega

/-- The convolution-weight block at every point is the whole (format-changed) array. -/
theorem iblk4_apply (hO : Ok m) (c : Dev nD) (t : Fin (cfgM m hO).N) (p : Fin 512) (q : Fin 512) :
    iblk m hO c 4 t (ix2 p q) = V m c main_v1 (ix2 p q) := by
  obtain ⟨e0, e1, e2, e3, e4, e5, e6, e7, e8⟩ := win_index (adm m hO) t
  have h0 : ((cfgM m hO).win 4).index t (0 : Fin 2) = 0 := congrFun e4 (0 : Fin 2)
  have h1 : ((cfgM m hO).win 4).index t (1 : Fin 2) = 0 := congrFun e4 (1 : Fin 2)
  show V m c main_v1 ((((cfgM m hO).win 4).blk t).view.emb (ix2 p q)) = _
  refine congrArg (V m c main_v1) ?_
  funext a
  apply Fin.ext
  match a with
  | ⟨0, _⟩ => show ((cfgM m hO).win 4).index t (0 : Fin 2) * 512 + 1 * p.val = p.val; omega
  | ⟨1, _⟩ => show ((cfgM m hO).win 4).index t (1 : Fin 2) * 512 + 1 * q.val = q.val; omega

/-- The bias block at every point is the whole bias column. -/
theorem iblk5_apply (hO : Ok m) (c : Dev nD) (t : Fin (cfgM m hO).N) (p : Fin 512) (q : Fin 1) :
    iblk m hO c 5 t (ix2 p q) = V m c main_v2 (ix2 p q) := by
  obtain ⟨e0, e1, e2, e3, e4, e5, e6, e7, e8⟩ := win_index (adm m hO) t
  have h0 : ((cfgM m hO).win 5).index t (0 : Fin 2) = 0 := congrFun e5 (0 : Fin 2)
  have h1 : ((cfgM m hO).win 5).index t (1 : Fin 2) = 0 := congrFun e5 (1 : Fin 2)
  show V m c main_v2 ((((cfgM m hO).win 5).blk t).view.emb (ix2 p q)) = _
  refine congrArg (V m c main_v2) ?_
  funext a
  apply Fin.ext
  match a with
  | ⟨0, _⟩ => show ((cfgM m hO).win 5).index t (0 : Fin 2) * 512 + 1 * p.val = p.val; omega
  | ⟨1, _⟩ => show ((cfgM m hO).win 5).index t (1 : Fin 2) * 1 + 1 * q.val = q.val; omega

/-! ## The output blocks' positions -/

/-- Output window 6's block at point t sits at batches 2t, 2t + 1: block index (r, p, q) is array index (2t + r, p, q). -/
theorem emb6_eq (hO : Ok m) (t : Fin (cfgM m hO).N) (r : Fin 2) (p : Fin 512) (q : Fin 2048) :
    (((cfgM m hO).win 6).blk t).view.emb (ix3 r p q) = ix3 (bat m hO t r) p q := by
  obtain ⟨e0, e1, e2, e3, e4, e5, e6, e7, e8⟩ := win_index (adm m hO) t
  have h0 : ((cfgM m hO).win 6).index t (0 : Fin 3) = t.val := congrFun e6 (0 : Fin 3)
  have h1 : ((cfgM m hO).win 6).index t (1 : Fin 3) = 0 := congrFun e6 (1 : Fin 3)
  have h2 : ((cfgM m hO).win 6).index t (2 : Fin 3) = 0 := congrFun e6 (2 : Fin 3)
  funext a
  apply Fin.ext
  match a with
  | ⟨0, _⟩ => show ((cfgM m hO).win 6).index t (0 : Fin 3) * 2 + 1 * r.val = 2 * t.val + r.val; omega
  | ⟨1, _⟩ => show ((cfgM m hO).win 6).index t (1 : Fin 3) * 512 + 1 * p.val = p.val; omega
  | ⟨2, _⟩ => show ((cfgM m hO).win 6).index t (2 : Fin 3) * 2048 + 1 * q.val = q.val; omega

/-- Output window 7's block at point t sits at batches 2t, 2t + 1: block index (r, p, q) is array index (2t + r, p, q). -/
theorem emb7_eq (hO : Ok m) (t : Fin (cfgM m hO).N) (r : Fin 2) (p : Fin 1) (q : Fin 2048) :
    (((cfgM m hO).win 7).blk t).view.emb (ix3 r p q) = ix3 (bat m hO t r) p q := by
  obtain ⟨e0, e1, e2, e3, e4, e5, e6, e7, e8⟩ := win_index (adm m hO) t
  have h0 : ((cfgM m hO).win 7).index t (0 : Fin 3) = t.val := congrFun e7 (0 : Fin 3)
  have h1 : ((cfgM m hO).win 7).index t (1 : Fin 3) = 0 := congrFun e7 (1 : Fin 3)
  have h2 : ((cfgM m hO).win 7).index t (2 : Fin 3) = 0 := congrFun e7 (2 : Fin 3)
  funext a
  apply Fin.ext
  match a with
  | ⟨0, _⟩ => show ((cfgM m hO).win 7).index t (0 : Fin 3) * 2 + 1 * r.val = 2 * t.val + r.val; omega
  | ⟨1, _⟩ => show ((cfgM m hO).win 7).index t (1 : Fin 3) * 1 + 1 * p.val = p.val; omega
  | ⟨2, _⟩ => show ((cfgM m hO).win 7).index t (2 : Fin 3) * 2048 + 1 * q.val = q.val; omega

/-- Output window 8's block at point t sits at batches 2t, 2t + 1: block index (r, p, q) is array index (2t + r, p, q). -/
theorem emb8_eq (hO : Ok m) (t : Fin (cfgM m hO).N) (r : Fin 2) (p : Fin 1) (q : Fin 2048) :
    (((cfgM m hO).win 8).blk t).view.emb (ix3 r p q) = ix3 (bat m hO t r) p q := by
  obtain ⟨e0, e1, e2, e3, e4, e5, e6, e7, e8⟩ := win_index (adm m hO) t
  have h0 : ((cfgM m hO).win 8).index t (0 : Fin 3) = t.val := congrFun e8 (0 : Fin 3)
  have h1 : ((cfgM m hO).win 8).index t (1 : Fin 3) = 0 := congrFun e8 (1 : Fin 3)
  have h2 : ((cfgM m hO).win 8).index t (2 : Fin 3) = 0 := congrFun e8 (2 : Fin 3)
  funext a
  apply Fin.ext
  match a with
  | ⟨0, _⟩ => show ((cfgM m hO).win 8).index t (0 : Fin 3) * 2 + 1 * r.val = 2 * t.val + r.val; omega
  | ⟨1, _⟩ => show ((cfgM m hO).win 8).index t (1 : Fin 3) * 1 + 1 * p.val = p.val; omega
  | ⟨2, _⟩ => show ((cfgM m hO).win 8).index t (2 : Fin 3) * 2048 + 1 * q.val = q.val; omega

/-! ## The arrays the host writes before the region -/

/-- The widened mask: each bit zero-extended to a 32-bit word. -/
theorem V_v0 (c : Dev nD) : V m c main_v0 = extui 32 (m ((c : Thread nD τ).loc main_arg2)) Facts₀.natLt_1_32 := by
  show StableHlo.after hostOps0 (fun b => m (c, b)) (Proc.devRef .tc main_v0) = _
  after_results <;> try rfl

/-- The convolution weights in the narrower float format. -/
theorem V_v1 (c : Dev nD) : V m c main_v1 = truncf .bf16 (m ((c : Thread nD τ).loc main_arg6)) Facts₀.bitsLt_bf16_f32 := by
  show StableHlo.after hostOps0 (fun b => m (c, b)) (Proc.devRef .tc main_v1) = _
  after_results <;> try rfl

/-- The bias with a unit column axis. -/
theorem V_v2 (c : Dev nD) : V m c main_v2 = shapeCast S512x1 (m ((c : Thread nD τ).loc main_arg7)) Facts₀.shapeCasts_S512_S512x1 := by
  show StableHlo.after hostOps0 (fun b => m (c, b)) (Proc.devRef .tc main_v2) = _
  after_results <;> try rfl

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.KernelFrame

end
-- ==== Proof.KernelArrays.lean ====
/-
  The kernel's three output arrays after the run, as functions of the argument arrays.

  At grid point t the body leaves, in each output's staging buffer, rows 2t and 2t + 1 of one whole-array function of
  the arrays the region found: the specification's attention weights, its updated mask as 32-bit words, and its
  convolved source.  The 32 points' blocks tile each output array along the batch axis, so each array ends at that
  function.  After the region the host compares the mask words with zero, which gives back the mask bits.
-/
import proofs.«402281_j61795989455034_3_alg».proof.Proof.KernelPieces
import proofs.«402281_j61795989455034_3_alg».proof.Proof.KernelBlocks

set_option maxRecDepth 16384

noncomputable section

namespace Cert.KernelFrame

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen Cert.AttnSpec

variable (m : (ℓ : Loc nD τ sig) → Buf (Elt Ideal) ℓ)

/-! ## The table word at a point -/

/-- Slot r of point t reads the previous index of batch 2t + r. -/
theorem tblWord_eq (hO : Ok m) (c : Dev nD) (t : Fin (cfgM m hO).N) (r : Fin 2) :
    tblWord (F := Ideal) c (grid0.coords t) r (tbl m 0) = tbl m 0 (ix1 (bat m hO t r)) := by
  unfold tblWord
  show tbM0_0.view.read (Elt Ideal) (tbl m 0)
      ((Rect.unit (s := S64) (k0_off1 (grid0.coords t) (BitVec.ofNat 32 r.val)) S1.size
        (Facts₀.k0_off1_inb (grid0.coords t) r)).toLoadRect.idx (Shape.Idx.first (Facts₀.numel1_S1.symm ▸ Nat.one_pos))) = _
  have hw : tbM0_0.view.read (Elt Ideal) (tbl m 0) = tbl m 0 := rfl
  refine (congrFun hw _).trans ?_
  refine congrArg (tbl m 0) ?_
  funext a
  apply Fin.ext
  obtain ⟨w0, w1⟩ := off_word t
  have hr := r.isLt
  match a with
  | ⟨0, _⟩ =>
    by_cases h : r.val = 0
    · have e : r = 0 := Fin.ext h
      subst e
      show k0_off1 (grid0.coords t) 0#32 (0 : Fin 1) + 1 * 0 = 2 * t.val + 0
      rw [w0]; show 2 * t.val + 1 * 0 = _; omega
    · have e : r = 1 := Fin.ext (by show r.val = 1; omega)
      subst e
      show k0_off1 (grid0.coords t) 1#32 (0 : Fin 1) + 1 * 0 = 2 * t.val + 1
      rw [w1]; show 2 * t.val + 1 + 1 * 0 = _; omega

/-! ## The whole-array functions -/

/-- The mask bits the region's mask-word window was made from. -/
abbrev maskBits (c : Dev nD) : Smask.Idx → BitVec 1 := m ((c : Thread nD τ).loc main_arg2)

/-- The attention weights of the arrays the region finds. -/
abbrev G7 (c : Dev nD) : Smask.Idx → EReal :=
  Glogits (V m c main_arg0) (V m c main_arg1) (maskBits m c) (tbl m 0) (V m c main_arg4)

/-- The mask-word block rows are the widened mask bits. -/
theorem maskWord (hO : Ok m) (c : Dev nD) (t : Fin (cfgM m hO).N) (r : Fin 2) (s : Fin 2048) :
    iblk m hO c 2 t (ix3 r (0 : Fin 1) s) = (maskBits m c (ix3 (bat m hO t r) (0 : Fin 1) s)).setWidth 32 := by
  rw [iblk2_apply, V_v0]
  rfl

set_option maxHeartbeats 1000000 in
/-- WHAT POINT t WRITES BACK to the attention-weight array is block t of `G7`. -/
theorem flushed7_eq (hO : Ok m) (c : Dev nD) (t : Fin (cfgM m hO).N) :
    (dats m hO 0 c).flushed 7 t = (((cfgM m hO).win 7).blk t).view.read (Elt Ideal) (G7 m c) := by
  show ((cfgM m hO).win 7).cut (grid0.coords t) ((dats m hO 0 c).after 7 t) = _
  rw [after0_7]
  refine funext fun (y : S2x1x2048.Idx) => ?_
  obtain ⟨r, z, s, rfl⟩ : ∃ (r : Fin 2) (z : Fin 1) (s : Fin 2048), y = ix3 r z s := ⟨y 0, y 1, y 2, eq_ix3 y⟩
  obtain rfl : z = 0 := Subsingleton.elim _ _
  show (outsAt0 m hO c t).2.1 (ix3 r (0 : Fin 1) s) = G7 m c ((((cfgM m hO).win 7).blk t).view.emb (ix3 r (0 : Fin 1) s))
  rw [emb7_eq m hO t r (0 : Fin 1) s]
  unfold outsAt0
  dsimp only
  refine (out7_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (tbl m 0)
    (fun s => maskBits m c (ix3 (bat m hO t 0) (0 : Fin 1) s)) (fun s => maskBits m c (ix3 (bat m hO t 1) (0 : Fin 1) s))
    (fun s => maskWord m hO c t 0 s) (fun s => maskWord m hO c t 1 s) (ix3 r (0 : Fin 1) s)).trans ?_
  have hr := r.isLt
  split
  · rename_i h
    have e : r = 0 := Fin.ext h
    subst e
    show rowLogit _ _ _ _ s = rowLogit _ _ _ _ s
    congr 1
    · funext d; exact iblk1_apply m hO c t 0 (0 : Fin 1) d
    · funext e d; exact iblk3_apply m hO c t e d
    · funext s' d; exact iblk0_apply m hO c t 0 s' d
    · funext s'; exact congrArg (fun w => hitBit w _ s') (tblWord_eq m hO c t 0)
  · rename_i h
    have e : r = 1 := Fin.ext (by show r.val = 1; have h' : r.val ≠ 0 := h; omega)
    subst e
    show rowLogit _ _ _ _ s = rowLogit _ _ _ _ s
    congr 1
    · funext d; exact iblk1_apply m hO c t 1 (0 : Fin 1) d
    · funext e d; exact iblk3_apply m hO c t e d
    · funext s' d; exact iblk0_apply m hO c t 1 s' d
    · funext s'; exact congrArg (fun w => hitBit w _ s') (tblWord_eq m hO c t 1)

/-! ## The mask words and the convolution -/

/-- The updated mask of the arrays the region finds, as 32-bit words. -/
abbrev G8 (c : Dev nD) : Smask.Idx → BitVec 32 := fun i => (Gmask (maskBits m c) (tbl m 0) i).setWidth 32

/-- The convolved source of the arrays the region finds. -/
abbrev G6 (c : Dev nD) : Sconv.Idx → EReal :=
  Gconv (V m c main_arg0) (m ((c : Thread nD τ).loc main_arg6)) (m ((c : Thread nD τ).loc main_arg7))

set_option maxHeartbeats 1000000 in
/-- WHAT POINT t WRITES BACK to the mask-word array is block t of `G8`. -/
theorem flushed8_eq (hO : Ok m) (c : Dev nD) (t : Fin (cfgM m hO).N) :
    (dats m hO 0 c).flushed 8 t = (((cfgM m hO).win 8).blk t).view.read (Elt Ideal) (G8 m c) := by
  show ((cfgM m hO).win 8).cut (grid0.coords t) ((dats m hO 0 c).after 8 t) = _
  rw [after0_8]
  refine funext fun (y : S2x1x2048.Idx) => ?_
  obtain ⟨r, p, s, rfl⟩ : ∃ (r : Fin 2) (p : Fin 1) (s : Fin 2048), y = ix3 r p s := ⟨y 0, y 1, y 2, eq_ix3 y⟩
  show (outsAt0 m hO c t).2.2 (ix3 r p s) = G8 m c ((((cfgM m hO).win 8).blk t).view.emb (ix3 r p s))
  rw [emb8_eq m hO t r p s]
  unfold outsAt0
  dsimp only
  refine (out8_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (tbl m 0)
    (fun s => maskBits m c (ix3 (bat m hO t 0) (0 : Fin 1) s)) (fun s => maskBits m c (ix3 (bat m hO t 1) (0 : Fin 1) s))
    (fun s => maskWord m hO c t 0 s) (fun s => maskWord m hO c t 1 s) (ix3 r p s)).trans ?_
  have hr := r.isLt
  split
  · rename_i h
    have e : r = 0 := Fin.ext h
    subst e
    obtain rfl : p = 0 := Subsingleton.elim _ _
    exact congrArg (fun w => (hitBit w _ s).setWidth 32) (tblWord_eq m hO c t 0)
  · rename_i h
    have e : r = 1 := Fin.ext (by show r.val = 1; have h' : r.val ≠ 0 := h; omega)
    subst e
    obtain rfl : p = 0 := Subsingleton.elim _ _
    exact congrArg (fun w => (hitBit w _ s).setWidth 32) (tblWord_eq m hO c t 1)

set_option maxHeartbeats 1000000 in
/-- WHAT POINT t WRITES BACK to the convolution array is block t of `G6`. -/
theorem flushed6_eq (hO : Ok m) (c : Dev nD) (t : Fin (cfgM m hO).N) :
    (dats m hO 0 c).flushed 6 t = (((cfgM m hO).win 6).blk t).view.read (Elt Ideal) (G6 m c) := by
  show ((cfgM m hO).win 6).cut (grid0.coords t) ((dats m hO 0 c).after 6 t) = _
  rw [after0_6]
  refine funext fun (y : S2x512x2048.Idx) => ?_
  obtain ⟨r, p, s, rfl⟩ : ∃ (r : Fin 2) (p : Fin 512) (s : Fin 2048), y = ix3 r p s := ⟨y 0, y 1, y 2, eq_ix3 y⟩
  show (outsAt0 m hO c t).1 (ix3 r p s) = G6 m c ((((cfgM m hO).win 6).blk t).view.emb (ix3 r p s))
  rw [emb6_eq m hO t r p s]
  unfold outsAt0
  dsimp only
  refine (out6_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (tbl m 0) (ix3 r p s)).trans ?_
  have hr := r.isLt
  split
  · rename_i h
    have e : r = 0 := Fin.ext h
    subst e
    show convAt _ _ _ p s = convAt _ _ _ p s
    congr 1
    · funext o d
      refine (iblk4_apply m hO c t o d).trans ?_
      rw [V_v1]
      rfl
    · funext s' d; exact iblk0_apply m hO c t 0 s' d
    · funext o
      refine (iblk5_apply m hO c t o (0 : Fin 1)).trans ?_
      rw [V_v2]
      exact shapeCast_a_a1_apply _ _ o (0 : Fin 1)
  · rename_i h
    have e : r = 1 := Fin.ext (by show r.val = 1; have h' : r.val ≠ 0 := h; omega)
    subst e
    show convAt _ _ _ p s = convAt _ _ _ p s
    congr 1
    · funext o d
      refine (iblk4_apply m hO c t o d).trans ?_
      rw [V_v1]
      rfl
    · funext s' d; exact iblk0_apply m hO c t 1 s' d
    · funext o
      refine (iblk5_apply m hO c t o (0 : Fin 1)).trans ?_
      rw [V_v2]
      exact shapeCast_a_a1_apply _ _ o (0 : Fin 1)

/-! ## The blocks tile the arrays -/

/-- Membership carried along an equation, over any index type. -/
theorem mem_of_eq {α : Type} {S : Finset α} {a b : α} (h : a = b) (ha : a ∈ S) : b ∈ S := h ▸ ha

/-- Every index of output array 6 is in the block of the point that handles its batch: point ⌊b / 2⌋, row b mod 2. -/
theorem cover6 (hO : Ok m) (i : Sconv.Idx) :
    ∃ t : Fin (cfgM m hO).N, ((cfgM m hO).win 6).flush t = true ∧ i ∈ (((cfgM m hO).win 6).blk t).view.set := by
  have hi0 : (i 0).val < 64 := (i 0).isLt
  have ht : (i 0).val / 2 < grid0.N := by rw [N_0]; omega
  refine ⟨⟨(i 0).val / 2, ht⟩, flush0_6 (adm m hO) _, ?_⟩
  have hmem := (((cfgM m hO).win 6).blk ⟨(i 0).val / 2, ht⟩).view.emb_mem_set
    (ix3 (⟨(i 0).val % 2, Nat.mod_lt _ (by decide)⟩ : Fin 2) (i 1) (i 2))
  rw [emb6_eq m hO ⟨(i 0).val / 2, ht⟩ ⟨(i 0).val % 2, Nat.mod_lt _ (by decide)⟩ (i 1) (i 2)] at hmem
  have e : ix3 (bat m hO ⟨(i 0).val / 2, ht⟩ ⟨(i 0).val % 2, Nat.mod_lt _ (by decide)⟩) (i 1) (i 2) = i := by
    funext a
    apply Fin.ext
    match a with
    | ⟨0, _⟩ => show 2 * ((i 0).val / 2) + (i 0).val % 2 = (i 0).val; omega
    | ⟨1, _⟩ => rfl
    | ⟨2, _⟩ => rfl
  exact mem_of_eq e hmem

/-- Output array 6 after the run. -/
theorem final6 (hO : Ok m) (c : Dev nD) : (dats m hO 0 c).arrAt 6 (cfgM m hO).N = G6 m c :=
  (dats m hO 0 c).arrAt_eq_of_cover 6 (G6 m c) (fun t _ => flushed6_eq m hO c t) (fun i => cover6 m hO i)

/-- Every index of output array 7 is in the block of the point that handles its batch: point ⌊b / 2⌋, row b mod 2. -/
theorem cover7 (hO : Ok m) (i : Smask.Idx) :
    ∃ t : Fin (cfgM m hO).N, ((cfgM m hO).win 7).flush t = true ∧ i ∈ (((cfgM m hO).win 7).blk t).view.set := by
  have hi0 : (i 0).val < 64 := (i 0).isLt
  have ht : (i 0).val / 2 < grid0.N := by rw [N_0]; omega
  refine ⟨⟨(i 0).val / 2, ht⟩, flush0_7 (adm m hO) _, ?_⟩
  have hmem := (((cfgM m hO).win 7).blk ⟨(i 0).val / 2, ht⟩).view.emb_mem_set
    (ix3 (⟨(i 0).val % 2, Nat.mod_lt _ (by decide)⟩ : Fin 2) (i 1) (i 2))
  rw [emb7_eq m hO ⟨(i 0).val / 2, ht⟩ ⟨(i 0).val % 2, Nat.mod_lt _ (by decide)⟩ (i 1) (i 2)] at hmem
  have e : ix3 (bat m hO ⟨(i 0).val / 2, ht⟩ ⟨(i 0).val % 2, Nat.mod_lt _ (by decide)⟩) (i 1) (i 2) = i := by
    funext a
    apply Fin.ext
    match a with
    | ⟨0, _⟩ => show 2 * ((i 0).val / 2) + (i 0).val % 2 = (i 0).val; omega
    | ⟨1, _⟩ => rfl
    | ⟨2, _⟩ => rfl
  exact mem_of_eq e hmem

/-- Output array 7 after the run. -/
theorem final7 (hO : Ok m) (c : Dev nD) : (dats m hO 0 c).arrAt 7 (cfgM m hO).N = G7 m c :=
  (dats m hO 0 c).arrAt_eq_of_cover 7 (G7 m c) (fun t _ => flushed7_eq m hO c t) (fun i => cover7 m hO i)

/-- Every index of output array 8 is in the block of the point that handles its batch: point ⌊b / 2⌋, row b mod 2. -/
theorem cover8 (hO : Ok m) (i : Smask.Idx) :
    ∃ t : Fin (cfgM m hO).N, ((cfgM m hO).win 8).flush t = true ∧ i ∈ (((cfgM m hO).win 8).blk t).view.set := by
  have hi0 : (i 0).val < 64 := (i 0).isLt
  have ht : (i 0).val / 2 < grid0.N := by rw [N_0]; omega
  refine ⟨⟨(i 0).val / 2, ht⟩, flush0_8 (adm m hO) _, ?_⟩
  have hmem := (((cfgM m hO).win 8).blk ⟨(i 0).val / 2, ht⟩).view.emb_mem_set
    (ix3 (⟨(i 0).val % 2, Nat.mod_lt _ (by decide)⟩ : Fin 2) (i 1) (i 2))
  rw [emb8_eq m hO ⟨(i 0).val / 2, ht⟩ ⟨(i 0).val % 2, Nat.mod_lt _ (by decide)⟩ (i 1) (i 2)] at hmem
  have e : ix3 (bat m hO ⟨(i 0).val / 2, ht⟩ ⟨(i 0).val % 2, Nat.mod_lt _ (by decide)⟩) (i 1) (i 2) = i := by
    funext a
    apply Fin.ext
    match a with
    | ⟨0, _⟩ => show 2 * ((i 0).val / 2) + (i 0).val % 2 = (i 0).val; omega
    | ⟨1, _⟩ => rfl
    | ⟨2, _⟩ => rfl
  exact mem_of_eq e hmem

/-- Output array 8 after the run. -/
theorem final8 (hO : Ok m) (c : Dev nD) : (dats m hO 0 c).arrAt 8 (cfgM m hO).N = G8 m c :=
  (dats m hO 0 c).arrAt_eq_of_cover 8 (G8 m c) (fun t _ => flushed8_eq m hO c t) (fun i => cover8 m hO i)

end Cert.KernelFrame

end
-- ==== Proof.KernelRun.lean ====
/-
  The idealized kernel's run, read back: every weakly fair execution ends with the convolution array at the
  specification's convolved source, the attention-weight array at its attention weights, the result mask (the mask
  words compared with zero by the host after the region) at its updated mask, and the arguments unchanged.
-/
import proofs.«402281_j61795989455034_3_alg».proof.Proof.KernelArrays

set_option maxRecDepth 16384

noncomputable section

namespace Cert.KernelFrame

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen Cert.AttnSpec

variable (m : (ℓ : Loc nD τ sig) → Buf (Elt Ideal) ℓ) (ρ : Dev nD → PrngReg)

/-- A bit's zero-extension is nonzero exactly when the bit is set. -/
theorem cmpi_ne_setWidth (b : BitVec 1) : IntOp.cmpi .ne (b.setWidth 32) 0#32 = b := by
  by_cases h : b = 1#1
  · subst h; decide
  · rw [eq_zero_of_ne_one h]; decide

set_option maxHeartbeats 1000000 in
/-- After the region the host compares the mask words with zero: the result mask is the updated mask. -/
theorem tail_mask (hO : Ok m) (c : Dev nD) :
    Pipeline.afterTail pcfgs (fun _ => adm m hO) (dats m hO) 0 (V0 m) [hostOps1] c main_v6
      = Gmask (maskBits m c) (tbl m 0) := by
  unfold Pipeline.afterTail
  show StableHlo.after hostOps1 _ (Proc.devRef .tc main_v6) = _
  after_results
  have hw : Pipeline.withArrays (Pipeline.pin pcfgs (fun _ => adm m hO) 0).spec c (V0 m c)
      (fun w => (dats m hO 0 c).arrAt w (Pipeline.pin pcfgs (fun _ => adm m hO) 0).N) (Proc.devRef .tc main_v3_2) = G8 m c :=
    (Pipeline.withArrays_arr spec0 winFacts0.arr_inj c (V0 m c) _ 8).trans (final8 m hO c)
  refine (congrArg (fun x => id (cmpi CmpIPredicate.ne x
    (broadcastInDim S64x1x2048 ![] Facts₀.bcast_S_S64x1x2048 (constantI S_ 32 0#32)))) hw).trans ?_
  funext i
  exact cmpi_ne_setWidth _

/-! ## The arrays of the launch memory -/

/-- The table of previous indices is the launch memory's (one device). -/
theorem tbl_eq (c : Dev nD) : tbl m 0 = m ((c.tc : Thread nD τ).loc main_arg3) := by
  obtain rfl : c = 0 := Subsingleton.elim _ _
  exact V_main_arg3 m 0

theorem G6_eq (c : Dev nD) :
    G6 m c = Gconv (m ((c.tc : Thread nD τ).loc main_arg0)) (m ((c.tc : Thread nD τ).loc main_arg6)) (m ((c.tc : Thread nD τ).loc main_arg7)) := by
  show Gconv (V m c main_arg0) _ _ = _
  rw [V_main_arg0 m c]

theorem G7_eq (c : Dev nD) :
    G7 m c = Glogits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show Glogits (V m c main_arg0) (V m c main_arg1) _ (tbl m 0) (V m c main_arg4) = _
  rw [V_main_arg0 m c, V_main_arg1 m c, V_main_arg4 m c, tbl_eq m c]

theorem Gmask_eq (c : Dev nD) :
    Gmask (maskBits m c) (tbl m 0) = Gmask (m ((c.tc : Thread nD τ).loc main_arg2)) (m ((c.tc : Thread nD τ).loc main_arg3)) := by
  rw [tbl_eq m c]

/-! ## The run -/

/-- Every weakly fair execution of the idealized kernel ends with its three results at the specification of the
    launch memory's arguments, and the arguments unchanged. -/
theorem run (hO : Ok m) : θ_run defs (onTc (τ := τ) (main (F := Ideal))) ⟨m, fun _ => 0, ρ⟩ (fun r => ∀ c : Dev nD,
      r.2.mem ((c.tc : Thread nD τ).loc main_v3_0) = Gconv (m ((c.tc : Thread nD τ).loc main_arg0)) (m ((c.tc : Thread nD τ).loc main_arg6)) (m ((c.tc : Thread nD τ).loc main_arg7))
      ∧ r.2.mem ((c.tc : Thread nD τ).loc main_v3_1) = Glogits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6) = Gmask (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).1 6).trans ((final6 m hO c).trans (G6_eq m c)),
      ((h c).1 7).trans ((final7 m hO c).trans (G7_eq m c)),
      ((h c).2 main_v6 (by decide : main_v6 ∈ Pipeline.restRefs sig spec0)).trans ((tail_mask m hO c).trans (Gmask_eq m c)),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      (((h c).2 main_arg2 (by decide : main_arg2 ∈ Pipeline.restRefs sig spec0)).trans (W_main_arg2 m hO (dats m hO) c)),
      (((h c).2 main_arg3 (by decide : main_arg3 ∈ Pipeline.restRefs sig spec0)).trans (W_main_arg3 m hO (dats m hO) c)),
      ((h c).1 3).trans (((dats m hO 0 c).arrAt_in 3 rfl _).trans ((A_eq m hO c 3).trans (V_main_arg4 m c))),
      (((h c).2 main_arg5 (by decide : main_arg5 ∈ Pipeline.restRefs sig spec0)).trans (W_main_arg5 m hO (dats m hO) c)),
      (((h c).2 main_arg6 (by decide : main_arg6 ∈ Pipeline.restRefs sig spec0)).trans (W_main_arg6 m hO (dats m hO) c)),
      (((h c).2 main_arg7 (by decide : main_arg7 ∈ Pipeline.restRefs sig spec0)).trans (W_main_arg7 m hO (dats m hO) c))⟩)
    (run_main m ρ hO)

end Cert.KernelFrame

end
-- ==== Proof.lean ====
/-
  One decoder attention step, fused in a kernel, against its plain reference, on the extended reals.

  For each of 64 batches b the target row is projected, p[e] = Σ_d tgt[b,0,d] · W_lin[e,d], and scored against the 2048
  source rows, a[s] = Σ_d p[d] · src[b,s,d].  Position s is masked when s is the batch's previous index or the input
  mask is set there; a masked score is -∞ (the kernel's finite fill is named -∞), and the attention weights are the
  row's softmax, exp(a[s] - max a) / Σ_s' exp(a[s'] - max a).  Beside them the 1×1 convolution
  c[b,o,s] = Σ_d W_conv[o,d] · src[b,s,d] + b_conv[o] and the updated mask are returned.

  The kernel handles two batches per grid point and reads the previous index from a prefetched table; it marks the
  position by comparing a lane counter with the index, so an index outside [0, 2048) marks nothing.  The reference
  scatters `true` at the index, reading a negative index from the end of the axis, so the two agree exactly where the
  previous indices are positions of the axis, 0 ≤ idx < 2048: the precondition says so, and that is all the proof
  takes from it.  There both programs compute the specification of Proof/Spec.lean: the reference stage by stage
  (Proof/RefScatter.lean, Proof/RefValue.lean), the kernel payload by payload (Proof/KernelHit.lean,
  Proof/KernelRows.lean), block by block (Proof/KernelPieces.lean, Proof/KernelBlocks.lean) and array by array
  (Proof/KernelArrays.lean, Proof/KernelRun.lean).  The sums are compared term by term, so no finiteness is used.
-/
import proofs.«402281_j61795989455034_3_alg».proof.Defs
import proofs.«402281_j61795989455034_3_alg».proof.Proof.Gen.Kernel
import proofs.«402281_j61795989455034_3_alg».proof.Proof.Gen.Kernel.Skeleton
import proofs.«402281_j61795989455034_3_alg».proof.Proof.Gen.Kernel.Launch
import proofs.«402281_j61795989455034_3_alg».proof.Proof.Gen.Kernel.Points
import proofs.«402281_j61795989455034_3_alg».proof.Proof.Gen.Kernel.Frame
import proofs.«402281_j61795989455034_3_alg».proof.Proof.Gen.KernelIdeal
import proofs.«402281_j61795989455034_3_alg».proof.Proof.Gen.KernelIdeal.Skeleton
import proofs.«402281_j61795989455034_3_alg».proof.Proof.Gen.KernelIdeal.Launch
import proofs.«402281_j61795989455034_3_alg».proof.Proof.Gen.KernelIdeal.Points
import proofs.«402281_j61795989455034_3_alg».proof.Proof.Gen.KernelIdeal.Frame
import proofs.«402281_j61795989455034_3_alg».proof.Proof.Gen.ReferenceIdeal
import proofs.«402281_j61795989455034_3_alg».proof.Proof.RefRunP
import proofs.«402281_j61795989455034_3_alg».proof.Proof.RefReadP
import proofs.«402281_j61795989455034_3_alg».proof.Proof.Gen.Pre_finite_inputs
import proofs.«402281_j61795989455034_3_alg».proof.Proof.PreDecode
import proofs.«402281_j61795989455034_3_alg».proof.Proof.RefValue
import proofs.«402281_j61795989455034_3_alg».proof.Proof.KernelRun
import Idealize.ShloMosaic.Adequacy
import Idealize.ShloMosaic.Init

noncomputable section

namespace Cert.Proof

open Idealize.ShloMosaic Idealize.ShloMosaic.ValueIdx Idealize.SL.Sem

/-- No window's index map reads the table of previous indices, so the pipeline asks nothing of its contents. -/
theorem ok_Kernel (m : (ℓ : Loc Cert.Kernel.nD Cert.Kernel.τ Cert.Kernel.sig) → Buf (Elt Bits) ℓ) : Cert.Kernel.Gen.Ok m := by
  show Cert.Kernel.ok0 _
  unfold Cert.Kernel.ok0
  trivial

theorem ok_KernelIdeal (m : (ℓ : Loc Cert.KernelIdeal.nD Cert.KernelIdeal.τ Cert.KernelIdeal.sig) → Buf (Elt Ideal) ℓ) :
    Cert.KernelIdeal.Gen.Ok m := by
  show Cert.KernelIdeal.ok0 _
  unfold Cert.KernelIdeal.ok0
  trivial

theorem frame_p : Cert.frame_Kernel := fun m ρ _ => Cert.Kernel.Gen.frame m ρ (ok_Kernel m)

theorem frame_pi : Cert.frame_KernelIdeal := fun m ρ _ => Cert.KernelIdeal.Gen.frame m ρ (ok_KernelIdeal m)

/-- The reference's frame is its run with the three results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The kernel's finite mask fill, at both of its two sites, is named -∞. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Both programs end at the specification of the arguments: the kernel always, the reference where the previous
    indices are positions of the source axis, which the precondition gives. -/
theorem algebraic : Cert.algebraic_KernelIdeal_ReferenceIdeal := by
  intro m ρ m' ρ' hpre hagree
  have hidx : ∀ (c : Dev Cert.KernelIdeal.nD) (b : Fin 64), (m ((c.tc : Thread Cert.KernelIdeal.nD Cert.KernelIdeal.τ).loc Cert.KernelIdeal.main_arg3) (ix1 b)).toNat < 2048 :=
    fun c b => Cert.PreDecode.idx_lt _ _ _ _ _ _ _ _ (hpre c) b
  refine ⟨fun c => Cert.AttnSpec.Gconv (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.AttnSpec.Glogits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.AttnSpec.Gmask (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelFrame.run m ρ (ok_KernelIdeal m), ?_⟩
  refine (θ_run Cert.ReferenceIdeal.defs _ _).mono (fun _ h c => ⟨?_, ?_, ?_, (h c).2.2.2⟩)
    (Cert.ReferenceIdeal.ValueP.run (F := Ideal) m' ρ')
  · rw [(h c).1, Cert.ReferenceIdeal.ReadP.val_main_v37_eq, Cert.RefSpec.ref_conv,
      (hagree c).1, (hagree c).2.2.2.2.2.2.1, (hagree c).2.2.2.2.2.2.2]
  · rw [(h c).2.1, Cert.ReferenceIdeal.ReadP.val_main_v29_eq, (hagree c).1, (hagree c).2.1, (hagree c).2.2.1,
      (hagree c).2.2.2.1, (hagree c).2.2.2.2.1]
    exact Cert.RefSpec.ref_logits _ _ _ _ _ (hidx c)
  · refine ((h c).2.2.1).trans ?_
    refine (Cert.ReferenceIdeal.ReadP.val_main_v17_eq (F := Ideal) _ _).trans ?_
    rw [(hagree c).2.2.1, (hagree c).2.2.2.1]
    exact Cert.RefSpec.ref_mask _ _ (hidx c)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
